-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x7x7 : Shape := ⟨4, ![2048, 256, 7, 7]⟩
abbrev S256x324 : Shape := ⟨2, ![256, 324]⟩
abbrev S1x324 : Shape := ⟨2, ![1, 324]⟩
abbrev S_ : Shape := ⟨0, ![]⟩

class Facts : Prop where
  bcast_S_S2048x256x7x7 : S_.BroadcastsInDim S2048x256x7x7 (![] : Fin 0 → Fin S2048x256x7x7.rank)
  reducesTo_S2048x256x7x7_S_d0_1_2_3 : S2048x256x7x7.ReducesTo [0, 1, 2, 3] S_
  h_S_ : 0 < S_.numel
  bcast_S_S256x324 : S_.BroadcastsInDim S256x324 (![] : Fin 0 → Fin S256x324.rank)
  reducesTo_S256x324_S_d0_1 : S256x324.ReducesTo [0, 1] S_
  bcast_S_S1x324 : S_.BroadcastsInDim S1x324 (![] : Fin 0 → Fin S1x324.rank)
  reducesTo_S1x324_S_d0_1 : S1x324.ReducesTo [0, 1] S_

variable [Facts]

def fn {F : FTy → Type} [FloatOps F] (main_arg0 : FVec F S2048x256x7x7 .f32) (main_arg1 : FVec F S256x324 .f32) (main_arg2 : FVec F S1x324 .f32) : IVec S_ 1 :=
  let main_v0 : FVec F S2048x256x7x7 .f32 := Host.absf main_arg0
  let main_cst : FVec F S_ .f32 := constant S_ .f32 0x7F800000#32
  let main_v1 : FVec F S2048x256x7x7 .f32 := broadcastInDim S2048x256x7x7 ![] bcast_S_S2048x256x7x7 main_cst
  let main_v2 : IVec S2048x256x7x7 1 := cmpf .olt main_v0 main_v1
  let main_c : IVec S_ 1 := constantI S_ 1 1#1
  let main_v3 : IVec S_ 1 := (fun x v => Host.reduce IntOp.andi x v reducesTo_S2048x256x7x7_S_d0_1_2_3 h_S_) main_v2 main_c
  let main_v4 : FVec F S256x324 .f32 := Host.absf main_arg1
  let main_cst_0 : FVec F S_ .f32 := constant S_ .f32 0x7F800000#32
  let main_v5 : FVec F S256x324 .f32 := broadcastInDim S256x324 ![] bcast_S_S256x324 main_cst_0
  let main_v6 : IVec S256x324 1 := cmpf .olt main_v4 main_v5
  let main_c_1 : IVec S_ 1 := constantI S_ 1 1#1
  let main_v7 : IVec S_ 1 := (fun x v => Host.reduce IntOp.andi x v reducesTo_S256x324_S_d0_1 h_S_) main_v6 main_c_1
  let main_v8 : IVec S_ 1 := andi main_v3 main_v7
  let main_v9 : FVec F S1x324 .f32 := Host.absf main_arg2
  let main_cst_2 : FVec F S_ .f32 := constant S_ .f32 0x7F800000#32
  let main_v10 : FVec F S1x324 .f32 := broadcastInDim S1x324 ![] bcast_S_S1x324 main_cst_2
  let main_v11 : IVec S1x324 1 := cmpf .olt main_v9 main_v10
  let main_c_3 : IVec S_ 1 := constantI S_ 1 1#1
  let main_v12 : IVec S_ 1 := (fun x v => Host.reduce IntOp.andi x v reducesTo_S1x324_S_d0_1 h_S_) main_v11 main_c_3
  let main_v13 : IVec S_ 1 := andi main_v8 main_v12
  main_v13
-- ==== Kernel.lean ====
abbrev S2048x256x7x7 : Shape := ⟨4, ![2048, 256, 7, 7]⟩
abbrev S256x324 : Shape := ⟨2, ![256, 324]⟩
abbrev S1x324 : Shape := ⟨2, ![1, 324]⟩
abbrev S7x7x2048x256 : Shape := ⟨4, ![7, 7, 2048, 256]⟩
abbrev S49x2048x256 : Shape := ⟨3, ![49, 2048, 256]⟩
abbrev S324x256 : Shape := ⟨2, ![324, 256]⟩
abbrev S324x1 : Shape := ⟨2, ![324, 1]⟩
abbrev S324x2048 : Shape := ⟨2, ![324, 2048]⟩
abbrev S7x128x256 : Shape := ⟨3, ![7, 128, 256]⟩
abbrev S324x128 : Shape := ⟨2, ![324, 128]⟩
abbrev S128x256 : Shape := ⟨2, ![128, 256]⟩
abbrev S2048x324 : Shape := ⟨2, ![2048, 324]⟩

abbrev nBuf : Space → Nat
  | .hbm => 9
  | .vmem => 18
  | .smem => 0
  | _ => 0

abbrev bufTy : (tb : Table) → Fin (tcTables nBuf tb) → BufTy
  | .hbm, ⟨0, _⟩ => ⟨S2048x256x7x7, .f32⟩
  | .hbm, ⟨1, _⟩ => ⟨S256x324, .f32⟩
  | .hbm, ⟨2, _⟩ => ⟨S1x324, .f32⟩
  | .hbm, ⟨3, _⟩ => ⟨S7x7x2048x256, .f32⟩
  | .hbm, ⟨4, _⟩ => ⟨S49x2048x256, .f32⟩
  | .hbm, ⟨5, _⟩ => ⟨S324x256, .f32⟩
  | .hbm, ⟨6, _⟩ => ⟨S324x1, .f32⟩
  | .hbm, ⟨7, _⟩ => ⟨S324x2048, .f32⟩
  | .hbm, ⟨8, _⟩ => ⟨S2048x324, .f32⟩
  | .local _ .vmem, ⟨0, _⟩ => ⟨S7x128x256, .f32⟩
  | .local _ .vmem, ⟨1, _⟩ => ⟨S7x128x256, .f32⟩
  | .local _ .vmem, ⟨2, _⟩ => ⟨S7x128x256, .f32⟩
  | .local _ .vmem, ⟨3, _⟩ => ⟨S7x128x256, .f32⟩
  | .local _ .vmem, ⟨4, _⟩ => ⟨S7x128x256, .f32⟩
  | .local _ .vmem, ⟨5, _⟩ => ⟨S7x128x256, .f32⟩
  | .local _ .vmem, ⟨6, _⟩ => ⟨S7x128x256, .f32⟩
  | .local _ .vmem, ⟨7, _⟩ => ⟨S7x128x256, .f32⟩
  | .local _ .vmem, ⟨8, _⟩ => ⟨S7x128x256, .f32⟩
  | .local _ .vmem, ⟨9, _⟩ => ⟨S7x128x256, .f32⟩
  | .local _ .vmem, ⟨10, _⟩ => ⟨S7x128x256, .f32⟩
  | .local _ .vmem, ⟨11, _⟩ => ⟨S7x128x256, .f32⟩
  | .local _ .vmem, ⟨12, _⟩ => ⟨S7x128x256, .f32⟩
  | .local _ .vmem, ⟨13, _⟩ => ⟨S7x128x256, .f32⟩
  | .local _ .vmem, ⟨14, _⟩ => ⟨S324x256, .f32⟩
  | .local _ .vmem, ⟨15, _⟩ => ⟨S324x1, .f32⟩
  | .local _ .vmem, ⟨16, _⟩ => ⟨S324x128, .f32⟩
  | .local _ .vmem, ⟨17, _⟩ => ⟨S324x128, .f32⟩
  | _, _ => ⟨S2048x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S7x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S7x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S324x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S324x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S324x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S2048x256x7x7_S7x7x2048x256_2_3_0_1 : S2048x256x7x7.Transposes [2, 3, 0, 1] S7x7x2048x256
  shapeCasts_S7x7x2048x256_S49x2048x256 : S7x7x2048x256.ShapeCasts S49x2048x256
  transposes_S256x324_S324x256_1_0 : S256x324.Transposes [1, 0] S324x256
  transposes_S1x324_S324x1_1_0 : S1x324.Transposes [1, 0] S324x1
  inb_S7x128x256_S7x128x256_0_0_0 : ∀ a, (![0, 0, 0] : Fin 3 → Nat) a + S7x128x256.size a ≤ S7x128x256.size a
  h_S7x128x256 : 0 < S7x128x256.numel
  shapeCasts_S7x128x256_S7x128x256 : S7x128x256.ShapeCasts S7x128x256
  reduces_S7x128x256_S128x256 : S7x128x256.Reduces [0] S128x256
  inb_S324x256_S324x256_0_0 : ∀ a, (![0, 0] : Fin 2 → Nat) a + S324x256.size a ≤ S324x256.size a
  h_S324x256 : 0 < S324x256.numel
  shapeCasts_S324x256_S324x256 : S324x256.ShapeCasts S324x256
  inb_S324x1_S324x1_0_0 : ∀ a, (![0, 0] : Fin 2 → Nat) a + S324x1.size a ≤ S324x1.size a
  h_S324x1 : 0 < S324x1.numel
  shapeCasts_S324x1_S324x1 : S324x1.ShapeCasts S324x1
  broadcasts_S324x1_S324x128 : S324x1.Broadcasts S324x128
  inb_S324x128_S324x128_0_0 : ∀ a, (![0, 0] : Fin 2 → Nat) a + S324x128.size a ≤ S324x128.size a
  h_S324x128 : 0 < S324x128.numel
  transposes_S324x2048_S2048x324_1_0 : S324x2048.Transposes [1, 0] S2048x324
  dot_S324x256_S128x256_S324x128_1_1_0_0_n_n_wf : DotDims.WF S324x256 S128x256 S324x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x128x256.size a ≤ S49x2048x256.size a
  hwx0_0 : ∀ i : grid0.Coords, EltTy.bits .f32 = 32 ∨ (Rect.block (s := S49x2048x256) S7x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7x128x256.size a ≤ S49x2048x256.size a
  hwx0_1 : ∀ i : grid0.Coords, EltTy.bits .f32 = 32 ∨ (Rect.block (s := S49x2048x256) S7x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7x128x256.size a ≤ S49x2048x256.size a
  hwx0_2 : ∀ i : grid0.Coords, EltTy.bits .f32 = 32 ∨ (Rect.block (s := S49x2048x256) S7x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S7x128x256.size a ≤ S49x2048x256.size a
  hwx0_3 : ∀ i : grid0.Coords, EltTy.bits .f32 = 32 ∨ (Rect.block (s := S49x2048x256) S7x128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S7x128x256.size a ≤ S49x2048x256.size a
  hwx0_4 : ∀ i : grid0.Coords, EltTy.bits .f32 = 32 ∨ (Rect.block (s := S49x2048x256) S7x128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S7x128x256.size a ≤ S49x2048x256.size a
  hwx0_5 : ∀ i : grid0.Coords, EltTy.bits .f32 = 32 ∨ (Rect.block (s := S49x2048x256) S7x128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S7x128x256.size a ≤ S49x2048x256.size a
  hwx0_6 : ∀ i : grid0.Coords, EltTy.bits .f32 = 32 ∨ (Rect.block (s := S49x2048x256) S7x128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S324x256.size a ≤ S324x256.size a
  hwx0_7 : ∀ i : grid0.Coords, EltTy.bits .f32 = 32 ∨ (Rect.block (s := S324x256) S324x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S324x1.size a ≤ S324x1.size a
  hwx0_8 : ∀ i : grid0.Coords, EltTy.bits .f32 = 32 ∨ (Rect.block (s := S324x1) S324x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S324x128.size a ≤ S324x2048.size a
  hwx0_9 : ∀ i : grid0.Coords, EltTy.bits .f32 = 32 ∨ (Rect.block (s := S324x2048) S324x128.size (cc0_transform_9 i) (hinb0_9 i)).WholeWords (EltTy.packing .f32)

variable [Facts₀]

def dot_S324x256_S128x256_S324x128_1_1_0_0_n_n : DotDims S324x256 S128x256 S324x128 where
  lhsContracting := [1]
  rhsContracting := [1]
  lhsNonContracting := [0]
  rhsNonContracting := [0]
  lhsBatch := []
  rhsBatch := []
  wf := dot_S324x256_S128x256_S324x128_1_1_0_0_n_n_wf

abbrev win0_0 : Pipeline.Window sig grid0 :=
  Pipeline.Window.ofSpec (Memref.whole main_v1) S7x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S7x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S7x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S7x128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S7x128x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S7x128x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S7x128x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S324x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S324x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S324x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x256x7x7 : Shape := ⟨4, ![2048, 256, 7, 7]⟩
abbrev S256x324 : Shape := ⟨2, ![256, 324]⟩
abbrev S1x324 : Shape := ⟨2, ![1, 324]⟩
abbrev S2048x256x49 : Shape := ⟨3, ![2048, 256, 49]⟩
abbrev S_ : Shape := ⟨0, ![]⟩
abbrev S2048x324 : Shape := ⟨2, ![2048, 324]⟩
abbrev S64x256x49 : Shape := ⟨3, ![64, 256, 49]⟩
abbrev S64x324 : Shape := ⟨2, ![64, 324]⟩
abbrev S64x256 : Shape := ⟨2, ![64, 256]⟩

abbrev nBuf : Space → Nat
  | .hbm => 8
  | .vmem => 6
  | .smem => 0
  | _ => 0

abbrev bufTy : (tb : Table) → Fin (tcTables nBuf tb) → BufTy
  | .hbm, ⟨0, _⟩ => ⟨S2048x256x7x7, .f32⟩
  | .hbm, ⟨1, _⟩ => ⟨S256x324, .f32⟩
  | .hbm, ⟨2, _⟩ => ⟨S1x324, .f32⟩
  | .hbm, ⟨3, _⟩ => ⟨S2048x256x49, .f32⟩
  | .hbm, ⟨4, _⟩ => ⟨S_, .f32⟩
  | .hbm, ⟨5, _⟩ => ⟨S256x324, .f32⟩
  | .hbm, ⟨6, _⟩ => ⟨S256x324, .f32⟩
  | .hbm, ⟨7, _⟩ => ⟨S2048x324, .f32⟩
  | .local _ .vmem, ⟨0, _⟩ => ⟨S64x256x49, .f32⟩
  | .local _ .vmem, ⟨1, _⟩ => ⟨S64x256x49, .f32⟩
  | .local _ .vmem, ⟨2, _⟩ => ⟨S256x324, .f32⟩
  | .local _ .vmem, ⟨3, _⟩ => ⟨S1x324, .f32⟩
  | .local _ .vmem, ⟨4, _⟩ => ⟨S64x324, .f32⟩
  | .local _ .vmem, ⟨5, _⟩ => ⟨S64x324, .f32⟩
  | _, _ => ⟨S2048x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x324 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x324 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x324 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x256x7x7_S2048x256x49 : S2048x256x7x7.ShapeCasts S2048x256x49
  bcast_S_S256x324 : S_.BroadcastsInDim S256x324 (![] : Fin 0 → Fin S256x324.rank)
  inb_S64x256x49_S64x256x49_0_0_0 : ∀ a, (![0, 0, 0] : Fin 3 → Nat) a + S64x256x49.size a ≤ S64x256x49.size a
  h_S64x256x49 : 0 < S64x256x49.numel
  shapeCasts_S64x256x49_S64x256x49 : S64x256x49.ShapeCasts S64x256x49
  reduces_S64x256x49_S64x256 : S64x256x49.Reduces [2] S64x256
  inb_S256x324_S256x324_0_0 : ∀ a, (![0, 0] : Fin 2 → Nat) a + S256x324.size a ≤ S256x324.size a
  h_S256x324 : 0 < S256x324.numel
  shapeCasts_S256x324_S256x324 : S256x324.ShapeCasts S256x324
  inb_S1x324_S1x324_0_0 : ∀ a, (![0, 0] : Fin 2 → Nat) a + S1x324.size a ≤ S1x324.size a
  h_S1x324 : 0 < S1x324.numel
  broadcasts_S1x324_S64x324 : S1x324.Broadcasts S64x324
  inb_S64x324_S64x324_0_0 : ∀ a, (![0, 0] : Fin 2 → Nat) a + S64x324.size a ≤ S64x324.size a
  h_S64x324 : 0 < S64x324.numel
  dot_S64x256_S256x324_S64x324_1_0_0_1_n_n_wf : DotDims.WF S64x256 S256x324 S64x324 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x49.size a ≤ S2048x256x49.size a
  hwx0_0 : ∀ i : grid0.Coords, EltTy.bits .f32 = 32 ∨ (Rect.block (s := S2048x256x49) S64x256x49.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x324.size a ≤ S256x324.size a
  hwx0_1 : ∀ i : grid0.Coords, EltTy.bits .f32 = 32 ∨ (Rect.block (s := S256x324) S256x324.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x324.size a ≤ S1x324.size a
  hwx0_2 : ∀ i : grid0.Coords, EltTy.bits .f32 = 32 ∨ (Rect.block (s := S1x324) S1x324.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x324.size a ≤ S2048x324.size a
  hwx0_3 : ∀ i : grid0.Coords, EltTy.bits .f32 = 32 ∨ (Rect.block (s := S2048x324) S64x324.size (cc0_transform_3 i) (hinb0_3 i)).WholeWords (EltTy.packing .f32)

variable [Facts₀]

def dot_S64x256_S256x324_S64x324_1_0_0_1_n_n : DotDims S64x256 S256x324 S64x324 where
  lhsContracting := [1]
  rhsContracting := [0]
  lhsNonContracting := [0]
  rhsNonContracting := [1]
  lhsBatch := []
  rhsBatch := []
  wf := dot_S64x256_S256x324_S64x324_1_0_0_1_n_n_wf

abbrev win0_0 : Pipeline.Window sig grid0 :=
  Pipeline.Window.ofSpec (Memref.whole main_v0) S64x256x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x324.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x324.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x324.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.KernelBody.lean ====
/-
  The kernel's pallas region, point by point, for either reading of the floats.

  At a grid point the body loads seven (7, 128, 256) slabs of the spatially-major view of x, the whole transposed
  weights (324, 256) and the bias column (324, 1); it sums each slab over its leading axis, adds the seven partial
  sums, scales by the fixed word, contracts with the weights and adds the bias column broadcast along the batch axis;
  it stores the (324, 128) result block whole. Nothing is carried between points.

  This module states what the output buffer holds after the body as a function of the nine input blocks, proves the
  body's triple by symbolic execution, and gives the pipeline's proof data: every input buffer keeps its block, the
  output buffer holds the body's result, the region invariant is the untouched rest. The seven slab windows all read
  ONE array; the data therefore hold that array at seven shares that add up to the whole, one per window.
-/
import proofs.«139848_g2000206077643666_pallasbulk_1328_13_alg».proof.Proof.Gen.Kernel.Launch
import proofs.«139848_g2000206077643666_pallasbulk_1328_13_alg».proof.Proof.Gen.Kernel.Skeleton
import proofs.«139848_g2000206077643666_pallasbulk_1328_13_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core c's buffer contents when the region is entered: the launch memory after the four layout operations
    (two transposes and a reshape of x, a transpose of w, a transpose of b). -/
abbrev V0 (c : Dev nD) : Valuation τ sig (Elt F) := StableHlo.after [hostOps0].flatten (fun b => m (c, b))

abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Every input buffer holds its block at every point

An input window's current buffer holds the block of its array at the point, whether it was fetched there or the
block index has not moved since the last fetch (the weights and the bias are fetched once). -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rS : Rect S7x128x256 := Rect.unit (s := S7x128x256) ![0, 0, 0] S7x128x256.size inb_S7x128x256_S7x128x256_0_0_0
abbrev rW : Rect S324x256 := Rect.unit (s := S324x256) ![0, 0] S324x256.size inb_S324x256_S324x256_0_0
abbrev rB : Rect S324x1 := Rect.unit (s := S324x1) ![0, 0] S324x1.size inb_S324x1_S324x1_0_0
abbrev rO : Rect S324x128 := Rect.unit (s := S324x128) ![0, 0] S324x128.size inb_S324x128_S324x128_0_0

/-- The output buffer after the body, from the nine input blocks: its one whole store, whose value is the affine map
    of the scaled sum of the seven slab sums. -/
def out9 (x0 : Vec F S7x128x256 .f32) (x1 : Vec F S7x128x256 .f32) (x2 : Vec F S7x128x256 .f32) (x3 : Vec F S7x128x256 .f32) (x4 : Vec F S7x128x256 .f32) (x5 : Vec F S7x128x256 .f32) (x6 : Vec F S7x128x256 .f32) (x7 : Vec F S324x256 .f32) (x8 : Vec F S324x1 .f32) : Vec F S324x128 .f32 :=
  View.canon [⟨rO, k0_pay1 (k0_pay2 (View.ld x0 rS) (View.ld x1 rS) (View.ld x2 rS) (View.ld x3 rS) (View.ld x4 rS) (View.ld x5 rS) (View.ld x6 rS)) (View.ld x7 rW) (View.ld x8 rB)⟩]

/-- The one store covers the buffer. -/
theorem cover9 (p0 : Vec F S324x128 .f32) (y : S324x128.Idx) :
    ∃ pc ∈ ([⟨rO, p0⟩] : List (View.Piece (Elt F) S324x128 .f32)), y ∈ pc.1.set :=
  View.cover_of_tiled [⟨rO, p0⟩] S324x128.size (by rfl) y

set_option maxHeartbeats 2000000 in
/-- The body on whole buffers, the inputs' at contents xW and the output's at anything, runs to the continuation with
    the inputs' as they were and the output's at out9 of them. -/
theorem sound_kernel (c : Dev nD) (E : Set ℕ) (i : grid0.Coords) (arg1 : Memref sig .tc .vmem S7x128x256 .f32) (harg1 : arg1.IsWhole) (arg2 : Memref sig .tc .vmem S7x128x256 .f32) (harg2 : arg2.IsWhole) (arg3 : Memref sig .tc .vmem S7x128x256 .f32) (harg3 : arg3.IsWhole) (arg4 : Memref sig .tc .vmem S7x128x256 .f32) (harg4 : arg4.IsWhole) (arg5 : Memref sig .tc .vmem S7x128x256 .f32) (harg5 : arg5.IsWhole) (arg6 : Memref sig .tc .vmem S7x128x256 .f32) (harg6 : arg6.IsWhole) (arg7 : Memref sig .tc .vmem S7x128x256 .f32) (harg7 : arg7.IsWhole) (arg8 : Memref sig .tc .vmem S324x256 .f32) (harg8 : arg8.IsWhole) (arg9 : Memref sig .tc .vmem S324x1 .f32) (harg9 : arg9.IsWhole) (arg10 : Memref sig .tc .vmem S324x128 .f32) (harg10 : arg10.IsWhole)
    (x0 : Vec F S7x128x256 .f32) (x1 : Vec F S7x128x256 .f32) (x2 : Vec F S7x128x256 .f32) (x3 : Vec F S7x128x256 .f32) (x4 : Vec F S7x128x256 .f32) (x5 : Vec F S7x128x256 .f32) (x6 : Vec F S7x128x256 .f32) (x7 : Vec F S324x256 .f32) (x8 : Vec F S324x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc0__pool_linear_kernel i arg1 harg1 arg2 harg2 arg3 harg3 arg4 harg4 arg5 harg5 arg6 harg6 arg7 harg7 arg8 harg8 arg9 harg9 arg10 harg10) K := by
  simp only [cc0__pool_linear_kernel_eq_skeleton]; unfold cc0__pool_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover9 _)

/-! ## The pipeline's proof data -/

/-- The share of the slab array each of its seven windows holds: the whole split by halving the remainder six times. -/
def slabShare : Fin 7 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right.left
  | ⟨5, _⟩ => fullShare.right.right.right.right.right.left
  | ⟨6, _⟩ => fullShare.right.right.right.right.right.right

/-- The proof data of the pipeline on core c: the arrays as the region finds them; after the body at point t each
    input buffer at its block and the output buffer at out9 of the input blocks; the invariant the untouched rest;
    nothing owed; the slab array at its seven shares, the weights and the bias whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := match w with
    | ⟨0, _⟩ => slabShare 0
    | ⟨1, _⟩ => slabShare 1
    | ⟨2, _⟩ => slabShare 2
    | ⟨3, _⟩ => slabShare 3
    | ⟨4, _⟩ => slabShare 4
    | ⟨5, _⟩ => slabShare 5
    | ⟨6, _⟩ => slabShare 6
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelLaunch.lean ====
/-
  The launch of the kernel's program: its four layout operations, the pallas region, and the closing transpose.

  The region's seven slab windows read ONE array. The launch therefore hands the pipeline that array split into seven
  shares that add up to the whole, one per window, each read-only; the weights, the bias and the result array are held
  whole. After the last grid point the result array holds what the write-backs left, the slab array's seven shares stay
  with their windows (no later line reads it), and the closing transpose runs on the result array and its own target
  alone. The arguments are never written: they bypass the region and the closing line untouched.
-/
import proofs.«139848_g2000206077643666_pallasbulk_1328_13_alg».proof.Proof.KernelBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor

/-- @main is the four layout operations, the region, and the closing transpose: it reduces to the region continued by
    the closing line, at the contents after the first four. -/
theorem hmain (𝒱₀ : Variants) : Pipeline.HMainK (Ix := Unit) (Name := ℕ) (U := UR sig nD τ) (Lvl := ℕ) cfgs 0 defs₀ 𝒱₀ m (main (F := F))
    (V m) (fun _ => Pipeline.chain ([hostOps1].map StableHlo.seq)) :=
  Pipeline.hmain_around cfgs 0 defs₀ 𝒱₀ m main [hostOps0] [hostOps1] hostOps0_sub hostOps0_fresh (fun c => by rw [main_chain]; rfl)

/-- No layout operation before the region writes an argument: the region finds each as launched. -/
theorem V_arg (r : Ref sig .tc) (h0 : r ≠ main_v0) (h1 : r ≠ main_v1) (h2 : r ≠ main_v2) (h3 : r ≠ main_v3) (c : Dev nD) :
    V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) := V_arg m main_arg0 (by decide) (by decide) (by decide) (by decide) c
theorem V_main_arg1 (c : Dev nD) : V m c main_arg1 = m ((c : Thread nD τ).loc main_arg1) := V_arg m main_arg1 (by decide) (by decide) (by decide) (by decide) c
theorem V_main_arg2 (c : Dev nD) : V m c main_arg2 = m ((c : Thread nD τ).loc main_arg2) := V_arg m main_arg2 (by decide) (by decide) (by decide) (by decide) c

/-! ## The arrays dealt to the windows -/

/-- The pipeline's arrays as points-tos of whole buffers, each at its window's share. -/
theorem arrays_eq' (c : Dev nD) (G : (w : Fin cfg0.W) → Buf (Elt F) ((cfg0.win w).arr.view.loc (c.tc : Thread nD τ))) :
    ((dats m 0 c).arrays G : sProp 𝕄)
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right.left := rfl
theorem share_3 (c : Dev nD) : (dats m 0 c).share 3 = fullShare.right.right.right.left := rfl
theorem share_4 (c : Dev nD) : (dats m 0 c).share 4 = fullShare.right.right.right.right.left := rfl
theorem share_5 (c : Dev nD) : (dats m 0 c).share 5 = fullShare.right.right.right.right.right.left := rfl
theorem share_6 (c : Dev nD) : (dats m 0 c).share 6 = fullShare.right.right.right.right.right.right := rfl
theorem share_7 (c : Dev nD) : (dats m 0 c).share 7 = fullShare := rfl
theorem share_8 (c : Dev nD) : (dats m 0 c).share 8 = fullShare := rfl
theorem share_9 (c : Dev nD) : (dats m 0 c).share 9 = fullShare := rfl

/-- The distinct buffers behind the ten windows' arrays, one by one: four of them. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v2) ↦{fullShare} W main_v2)
          ∗ (((c : Thread nD τ).loc main_v3) ↦{fullShare} W main_v3) ∗ (((c : Thread nD τ).loc main_v4) ↦{fullShare} W main_v4)) := by
  unfold Pipeline.arrBufs
  exact bigSep_eq_bigSepL_of_eq [main_v1, main_v2, main_v3, main_v4] (by decide) (by decide) _

/-- The buffers behind the arrays, each whole, make the pipeline's arrays at entry: the slab array is split into its
    seven shares by halving the remainder six times; the other three arrays are handed over whole. -/
theorem hsplit (c : Dev nD) : (Pipeline.arrBufs spec0 c (V m c) : sProp 𝕄) ⊢ (dats m 0 c).arrays ((dats m 0 c).arrAt · 0) := by
  rw [arrays_eq', bigSep_W0, arrBufs_eq]
  rw [share_0, share_1, share_2, share_3, share_4, share_5, share_6, share_7, share_8, share_9]
  iintro ⟨H1, H2, H3, H4⟩
  ihave Hs := (pointsTo_share (PosShare.mem_left_op_right fullShare)).1 $$ H1
  icases Hs with ⟨S0, H1⟩
  ihave Hs := (pointsTo_share (PosShare.mem_left_op_right fullShare.right)).1 $$ H1
  icases Hs with ⟨S1, H1⟩
  ihave Hs := (pointsTo_share (PosShare.mem_left_op_right fullShare.right.right)).1 $$ H1
  icases Hs with ⟨S2, H1⟩
  ihave Hs := (pointsTo_share (PosShare.mem_left_op_right fullShare.right.right.right)).1 $$ H1
  icases Hs with ⟨S3, H1⟩
  ihave Hs := (pointsTo_share (PosShare.mem_left_op_right fullShare.right.right.right.right)).1 $$ H1
  icases Hs with ⟨S4, H1⟩
  ihave Hs := (pointsTo_share (PosShare.mem_left_op_right fullShare.right.right.right.right.right)).1 $$ H1
  icases Hs with ⟨S5, S6⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [H2]; · iexact H2
  isplitl [H3]; · iexact H3
  iexact H4

/-! ## The closing transpose -/

/-- The two buffers the closing line touches: the result array and its transposed copy. -/
abbrev tailSet : Finset (DevRef τ sig) := {Proc.devRef .tc main_v4, Proc.devRef .tc main_v5}

/-- The contents at the region's exit: the result array as the write-backs left it, every other buffer as the
    region found it. -/
def Wexit (c : Dev nD) : Valuation τ sig (Elt F) :=
  Function.update (V0 m c) (Proc.devRef .tc main_v4) ((dats m 0 c).arrAt 9 cfg0.N)

/-- What the program's result buffer holds at the end: the closing line's value at the exit contents. -/
def outT (c : Dev nD) : Buf (Elt F) ((c : Thread nD τ).loc main_v5) :=
  StableHlo.after [hostOps1].flatten (Wexit m c) (Proc.devRef .tc main_v5)

theorem held_tail (c : Dev nD) (W : Valuation τ sig (Elt F)) :
    (StableHlo.held (Ix := Unit) (Name := ℕ) (U := UR sig nD τ) (Lvl := ℕ) (c.tc : Thread nD τ) tailSet W : sProp 𝕄)
      = iprop((((c : Thread nD τ).loc main_v4) ↦{fullShare} W (Proc.devRef .tc main_v4))
          ∗ (((c : Thread nD τ).loc main_v5) ↦{fullShare} W (Proc.devRef .tc main_v5))) := by
  unfold StableHlo.held tailSet
  rw [bigSep_insert (by decide), bigSep_singleton]
  rfl

theorem Wexit_v4 (c : Dev nD) : Wexit m c (Proc.devRef .tc main_v4) = (dats m 0 c).arrAt 9 cfg0.N := by
  unfold Wexit; exact Function.update_self _ _ _

theorem Wexit_v5 (c : Dev nD) : Wexit m c (Proc.devRef .tc main_v5) = V m c main_v5 := by
  unfold Wexit; exact Function.update_of_ne (by decide) _ _

/-- The closing line leaves the result array as it was. -/
theorem after_tail_v4 (c : Dev nD) :
    StableHlo.after [hostOps1].flatten (Wexit m c) (Proc.devRef .tc main_v4) = (dats m 0 c).arrAt 9 cfg0.N := by
  rw [StableHlo.after_of_forall_not_mem (b := Proc.devRef .tc main_v4) _ _ (List.forall_iff_forall_mem.mp (by
    simp only [hostOps1, List.flatten_cons, List.flatten_nil, List.append_nil, List.Forall, StableHlo.unary_writes, Finset.mem_singleton]
    exact StableHlo.devRef_ne_of_ne (by decide)))]
  exact Wexit_v4 m c

/-- The value the closing line writes: the transpose of the result array. -/
theorem outT_eq (c : Dev nD) :
    outT m c = transpose S2048x324 [1, 0] ((dats m 0 c).arrAt 9 cfg0.N) transposes_S324x2048_S2048x324_1_0 := by
  unfold outT
  simp only [hostOps1, List.flatten_cons, List.flatten_nil, List.append_nil]
  rw [StableHlo.after_cons, StableHlo.after_nil, StableHlo.unary_result', Wexit_v4]

/-- The bypassing buffers after the closing line: as the region found them, but the program's result buffer at the
    closing line's value. -/
def Vfin (c : Dev nD) (b : Ref sig .tc) : Buf (Elt F) ((c : Thread nD τ).loc b) :=
  Function.update (V m c) main_v5 (outT m c) b

theorem Vfin_ne (c : Dev nD) (b : Ref sig .tc) (h : b ≠ main_v5) : Vfin m c b = V m c b := by
  unfold Vfin; exact Function.update_of_ne h _ _

theorem Vfin_v5 (c : Dev nD) : Vfin m c main_v5 = outT m c := by
  unfold Vfin; exact Function.update_self _ _ _

theorem tail_sub : ∀ ops ∈ ([hostOps1] : List (List (HloOp τ sig (Elt F)))), ∀ op ∈ ops, op.bufs ⊆ tailSet := by
  intro ops hops op hop
  rw [List.mem_singleton] at hops; subst hops
  rw [List.mem_singleton] at hop; subst hop
  exact Finset.Subset.refl _

theorem tail_fresh : ∀ ops ∈ ([hostOps1] : List (List (HloOp τ sig (Elt F)))), ∀ op ∈ ops, op.fresh = ∅ := by
  intro ops hops op hop
  rw [List.mem_singleton] at hops; subst hops
  rw [List.mem_singleton] at hop; subst hop
  rfl

set_option backward.isDefEq.respectTransparency.types false in
/-- The closing line alone: holding the result array at its final contents and the target buffer, the transpose runs
    and hands both back, the target at the transpose. -/
theorem tail_step (c : Dev nD) (Q' : PUnit → sProp 𝕄) :
    iprop(boundary (c.tc : Thread nD τ) ∗ (((c : Thread nD τ).loc main_v4) ↦{fullShare} (dats m 0 c).arrAt 9 cfg0.N)
        ∗ (((c : Thread nD τ).loc main_v5) ↦{fullShare} V m c main_v5))
      ⊢ iprop(((boundary (c.tc : Thread nD τ) ∗ (((c : Thread nD τ).loc main_v4) ↦{fullShare} (dats m 0 c).arrAt 9 cfg0.N)
                  ∗ (((c : Thread nD τ).loc main_v5) ↦{fullShare} outT m c))
                -∗ wp frame (wpE (Pipeline.defs (fun q => (cfgs q).toPCfg (Val := Elt F)) defs₀) (Variants.lift Variants.none) (c.tc : Thread nD τ) none) Set.univ
                    (Pipeline.chain []) Q')
          -∗ wp frame (wpE (Pipeline.defs (fun q => (cfgs q).toPCfg (Val := Elt F)) defs₀) (Variants.lift Variants.none) (c.tc : Thread nD τ) none) Set.univ
              (Pipeline.chain ([hostOps1].map StableHlo.seq)) Q') := by
  have h := Pipeline.wp_seqs_then (Ix := Unit) (Name := ℕ) (U := UR sig nD τ) (Lvl := ℕ) (fun q => (cfgs q).toPCfg (Val := Elt F)) defs₀ Variants.none c tailSet []
    [hostOps1] tail_sub tail_fresh (Wexit m c) (K := Q')
  rw [held_tail, held_tail, Wexit_v4, Wexit_v5, after_tail_v4, List.append_nil] at h
  exact h

set_option backward.isDefEq.respectTransparency.types false in
/-- THE CLOSING LINE from the region's exit: holding the pipeline's arrays at their final contents and the bypassing
    buffers as the region found them, the transpose runs on the result array and its target and hands everything
    back, the target now at the transpose. -/
theorem htail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vfin m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  rw [Pipeline.unscopedRestP_none, Pipeline.unscopedRestP_none, unscopedRest0_eq, unscopedRest0_eq, arrays_eq', bigSep_W0, share_9,
    Vfin_ne m c main_arg0 (by decide), Vfin_ne m c main_arg1 (by decide), Vfin_ne m c main_arg2 (by decide), Vfin_ne m c main_v0 (by decide), Vfin_v5]
  iintro ⟨Hk, Hb, ⟨A0, A1, A2, A3, A4, A5, A6, A7, A8, A9⟩, ⟨R0, R1, R2, R3, R4⟩⟩
  iapply (tail_step m c Q') $$ [Hb A9 R4]
  · isplitl [Hb]; · iexact Hb
    isplitl [A9]; · iexact A9
    iexact R4
  iintro ⟨Hb, A9, R4⟩
  iapply (show iprop(Q' ⟨⟩) ⊢ wp frame (wpE (Pipeline.defs (fun q => (cfgs q).toPCfg (Val := Elt F)) defs₀) (Variants.lift Variants.none) (c.tc : Thread nD τ) none) Set.univ
      (Pipeline.chain []) Q' from by
    rw [Pipeline.chain_nil, wp_pure]; iintro H; imodintro; iexact H)
  iapply Hk
  isplitr [R0 R1 R2 R3 R4]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  · isplitl [R0]; · iexact R0
    isplitl [R1]; · iexact R1
    isplitl [R2]; · iexact R2
    isplitl [R3]; · iexact R3
    iexact R4

/-! ## The run -/

set_option backward.isDefEq.respectTransparency.types false in
/-- From any memory with zero counters every weakly fair execution of @main terminates without a fault; at the end the
    program's result buffer holds the transpose of the pipeline's result array as the write-backs left it, and the
    three argument arrays hold what they held at launch. -/
theorem run_main : θ_run defs (onTc (τ := τ) (main (F := F))) ⟨m, fun _ => 0, ρ⟩ (fun r => ∀ c : Dev nD,
      r.2.mem ((c.tc : Thread nD τ).loc main_v5) = outT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vfin m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Vfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vfin m c) s')
      isplitl [HU] <;> iassumption)
    (hQ := fun s h c => by
      have hr := (h c).2.2
      have mem : ∀ b : Ref sig .tc, b.isScoped = false → (∀ w, (spec0 w).arr.view.ref ≠ b) →
          b ∈ Pipeline.restRefsP sig Pipeline.Prefetch.none spec0 := fun b hs ha =>
        Finset.mem_sdiff.mpr ⟨Pipeline.mem_restRefs_of b hs ha, fun hk => by
          obtain ⟨k, -, -⟩ := Finset.mem_image.mp hk; exact k.elim0⟩
      refine ⟨(hr main_v5 (mem _ (by decide) (by decide))).trans (Vfin_v5 m c), ?_, ?_, ?_⟩
      · exact ((hr main_arg0 (mem _ (by decide) (by decide))).trans (Vfin_ne m c _ (by decide))).trans (V_main_arg0 m c)
      · exact ((hr main_arg1 (mem _ (by decide) (by decide))).trans (Vfin_ne m c _ (by decide))).trans (V_main_arg1 m c)
      · exact ((hr main_arg2 (mem _ (by decide) (by decide))).trans (Vfin_ne m c _ (by decide))).trans (V_main_arg2 m c))

end Cert.Kernel.Hand

end
-- ==== Proof.KernelIdealBody.lean ====
/-
  The kernel's pallas region, point by point, for either reading of the floats.

  At a grid point the body loads seven (7, 128, 256) slabs of the spatially-major view of x, the whole transposed
  weights (324, 256) and the bias column (324, 1); it sums each slab over its leading axis, adds the seven partial
  sums, scales by the fixed word, contracts with the weights and adds the bias column broadcast along the batch axis;
  it stores the (324, 128) result block whole. Nothing is carried between points.

  This module states what the output buffer holds after the body as a function of the nine input blocks, proves the
  body's triple by symbolic execution, and gives the pipeline's proof data: every input buffer keeps its block, the
  output buffer holds the body's result, the region invariant is the untouched rest. The seven slab windows all read
  ONE array; the data therefore hold that array at seven shares that add up to the whole, one per window.
-/
import proofs.«139848_g2000206077643666_pallasbulk_1328_13_alg».proof.Proof.Gen.KernelIdeal.Launch
import proofs.«139848_g2000206077643666_pallasbulk_1328_13_alg».proof.Proof.Gen.KernelIdeal.Skeleton
import proofs.«139848_g2000206077643666_pallasbulk_1328_13_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core c's buffer contents when the region is entered: the launch memory after the four layout operations
    (two transposes and a reshape of x, a transpose of w, a transpose of b). -/
abbrev V0 (c : Dev nD) : Valuation τ sig (Elt F) := StableHlo.after [hostOps0].flatten (fun b => m (c, b))

abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Every input buffer holds its block at every point

An input window's current buffer holds the block of its array at the point, whether it was fetched there or the
block index has not moved since the last fetch (the weights and the bias are fetched once). -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rS : Rect S7x128x256 := Rect.unit (s := S7x128x256) ![0, 0, 0] S7x128x256.size inb_S7x128x256_S7x128x256_0_0_0
abbrev rW : Rect S324x256 := Rect.unit (s := S324x256) ![0, 0] S324x256.size inb_S324x256_S324x256_0_0
abbrev rB : Rect S324x1 := Rect.unit (s := S324x1) ![0, 0] S324x1.size inb_S324x1_S324x1_0_0
abbrev rO : Rect S324x128 := Rect.unit (s := S324x128) ![0, 0] S324x128.size inb_S324x128_S324x128_0_0

/-- The output buffer after the body, from the nine input blocks: its one whole store, whose value is the affine map
    of the scaled sum of the seven slab sums. -/
def out9 (x0 : Vec F S7x128x256 .f32) (x1 : Vec F S7x128x256 .f32) (x2 : Vec F S7x128x256 .f32) (x3 : Vec F S7x128x256 .f32) (x4 : Vec F S7x128x256 .f32) (x5 : Vec F S7x128x256 .f32) (x6 : Vec F S7x128x256 .f32) (x7 : Vec F S324x256 .f32) (x8 : Vec F S324x1 .f32) : Vec F S324x128 .f32 :=
  View.canon [⟨rO, k0_pay1 (k0_pay2 (View.ld x0 rS) (View.ld x1 rS) (View.ld x2 rS) (View.ld x3 rS) (View.ld x4 rS) (View.ld x5 rS) (View.ld x6 rS)) (View.ld x7 rW) (View.ld x8 rB)⟩]

/-- The one store covers the buffer. -/
theorem cover9 (p0 : Vec F S324x128 .f32) (y : S324x128.Idx) :
    ∃ pc ∈ ([⟨rO, p0⟩] : List (View.Piece (Elt F) S324x128 .f32)), y ∈ pc.1.set :=
  View.cover_of_tiled [⟨rO, p0⟩] S324x128.size (by rfl) y

set_option maxHeartbeats 2000000 in
/-- The body on whole buffers, the inputs' at contents xW and the output's at anything, runs to the continuation with
    the inputs' as they were and the output's at out9 of them. -/
theorem sound_kernel (c : Dev nD) (E : Set ℕ) (i : grid0.Coords) (arg1 : Memref sig .tc .vmem S7x128x256 .f32) (harg1 : arg1.IsWhole) (arg2 : Memref sig .tc .vmem S7x128x256 .f32) (harg2 : arg2.IsWhole) (arg3 : Memref sig .tc .vmem S7x128x256 .f32) (harg3 : arg3.IsWhole) (arg4 : Memref sig .tc .vmem S7x128x256 .f32) (harg4 : arg4.IsWhole) (arg5 : Memref sig .tc .vmem S7x128x256 .f32) (harg5 : arg5.IsWhole) (arg6 : Memref sig .tc .vmem S7x128x256 .f32) (harg6 : arg6.IsWhole) (arg7 : Memref sig .tc .vmem S7x128x256 .f32) (harg7 : arg7.IsWhole) (arg8 : Memref sig .tc .vmem S324x256 .f32) (harg8 : arg8.IsWhole) (arg9 : Memref sig .tc .vmem S324x1 .f32) (harg9 : arg9.IsWhole) (arg10 : Memref sig .tc .vmem S324x128 .f32) (harg10 : arg10.IsWhole)
    (x0 : Vec F S7x128x256 .f32) (x1 : Vec F S7x128x256 .f32) (x2 : Vec F S7x128x256 .f32) (x3 : Vec F S7x128x256 .f32) (x4 : Vec F S7x128x256 .f32) (x5 : Vec F S7x128x256 .f32) (x6 : Vec F S7x128x256 .f32) (x7 : Vec F S324x256 .f32) (x8 : Vec F S324x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc0__pool_linear_kernel i arg1 harg1 arg2 harg2 arg3 harg3 arg4 harg4 arg5 harg5 arg6 harg6 arg7 harg7 arg8 harg8 arg9 harg9 arg10 harg10) K := by
  simp only [cc0__pool_linear_kernel_eq_skeleton]; unfold cc0__pool_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover9 _)

/-! ## The pipeline's proof data -/

/-- The share of the slab array each of its seven windows holds: the whole split by halving the remainder six times. -/
def slabShare : Fin 7 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right.left
  | ⟨5, _⟩ => fullShare.right.right.right.right.right.left
  | ⟨6, _⟩ => fullShare.right.right.right.right.right.right

/-- The proof data of the pipeline on core c: the arrays as the region finds them; after the body at point t each
    input buffer at its block and the output buffer at out9 of the input blocks; the invariant the untouched rest;
    nothing owed; the slab array at its seven shares, the weights and the bias whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := match w with
    | ⟨0, _⟩ => slabShare 0
    | ⟨1, _⟩ => slabShare 1
    | ⟨2, _⟩ => slabShare 2
    | ⟨3, _⟩ => slabShare 3
    | ⟨4, _⟩ => slabShare 4
    | ⟨5, _⟩ => slabShare 5
    | ⟨6, _⟩ => slabShare 6
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealLaunch.lean ====
/-
  The launch of the kernel's program: its four layout operations, the pallas region, and the closing transpose.

  The region's seven slab windows read ONE array. The launch therefore hands the pipeline that array split into seven
  shares that add up to the whole, one per window, each read-only; the weights, the bias and the result array are held
  whole. After the last grid point the result array holds what the write-backs left, the slab array's seven shares stay
  with their windows (no later line reads it), and the closing transpose runs on the result array and its own target
  alone. The arguments are never written: they bypass the region and the closing line untouched.
-/
import proofs.«139848_g2000206077643666_pallasbulk_1328_13_alg».proof.Proof.KernelIdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor

/-- @main is the four layout operations, the region, and the closing transpose: it reduces to the region continued by
    the closing line, at the contents after the first four. -/
theorem hmain (𝒱₀ : Variants) : Pipeline.HMainK (Ix := Unit) (Name := ℕ) (U := UR sig nD τ) (Lvl := ℕ) cfgs 0 defs₀ 𝒱₀ m (main (F := F))
    (V m) (fun _ => Pipeline.chain ([hostOps1].map StableHlo.seq)) :=
  Pipeline.hmain_around cfgs 0 defs₀ 𝒱₀ m main [hostOps0] [hostOps1] hostOps0_sub hostOps0_fresh (fun c => by rw [main_chain]; rfl)

/-- No layout operation before the region writes an argument: the region finds each as launched. -/
theorem V_arg (r : Ref sig .tc) (h0 : r ≠ main_v0) (h1 : r ≠ main_v1) (h2 : r ≠ main_v2) (h3 : r ≠ main_v3) (c : Dev nD) :
    V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) := V_arg m main_arg0 (by decide) (by decide) (by decide) (by decide) c
theorem V_main_arg1 (c : Dev nD) : V m c main_arg1 = m ((c : Thread nD τ).loc main_arg1) := V_arg m main_arg1 (by decide) (by decide) (by decide) (by decide) c
theorem V_main_arg2 (c : Dev nD) : V m c main_arg2 = m ((c : Thread nD τ).loc main_arg2) := V_arg m main_arg2 (by decide) (by decide) (by decide) (by decide) c

/-! ## The arrays dealt to the windows -/

/-- The pipeline's arrays as points-tos of whole buffers, each at its window's share. -/
theorem arrays_eq' (c : Dev nD) (G : (w : Fin cfg0.W) → Buf (Elt F) ((cfg0.win w).arr.view.loc (c.tc : Thread nD τ))) :
    ((dats m 0 c).arrays G : sProp 𝕄)
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right.left := rfl
theorem share_3 (c : Dev nD) : (dats m 0 c).share 3 = fullShare.right.right.right.left := rfl
theorem share_4 (c : Dev nD) : (dats m 0 c).share 4 = fullShare.right.right.right.right.left := rfl
theorem share_5 (c : Dev nD) : (dats m 0 c).share 5 = fullShare.right.right.right.right.right.left := rfl
theorem share_6 (c : Dev nD) : (dats m 0 c).share 6 = fullShare.right.right.right.right.right.right := rfl
theorem share_7 (c : Dev nD) : (dats m 0 c).share 7 = fullShare := rfl
theorem share_8 (c : Dev nD) : (dats m 0 c).share 8 = fullShare := rfl
theorem share_9 (c : Dev nD) : (dats m 0 c).share 9 = fullShare := rfl

/-- The distinct buffers behind the ten windows' arrays, one by one: four of them. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v2) ↦{fullShare} W main_v2)
          ∗ (((c : Thread nD τ).loc main_v3) ↦{fullShare} W main_v3) ∗ (((c : Thread nD τ).loc main_v4) ↦{fullShare} W main_v4)) := by
  unfold Pipeline.arrBufs
  exact bigSep_eq_bigSepL_of_eq [main_v1, main_v2, main_v3, main_v4] (by decide) (by decide) _

/-- The buffers behind the arrays, each whole, make the pipeline's arrays at entry: the slab array is split into its
    seven shares by halving the remainder six times; the other three arrays are handed over whole. -/
theorem hsplit (c : Dev nD) : (Pipeline.arrBufs spec0 c (V m c) : sProp 𝕄) ⊢ (dats m 0 c).arrays ((dats m 0 c).arrAt · 0) := by
  rw [arrays_eq', bigSep_W0, arrBufs_eq]
  rw [share_0, share_1, share_2, share_3, share_4, share_5, share_6, share_7, share_8, share_9]
  iintro ⟨H1, H2, H3, H4⟩
  ihave Hs := (pointsTo_share (PosShare.mem_left_op_right fullShare)).1 $$ H1
  icases Hs with ⟨S0, H1⟩
  ihave Hs := (pointsTo_share (PosShare.mem_left_op_right fullShare.right)).1 $$ H1
  icases Hs with ⟨S1, H1⟩
  ihave Hs := (pointsTo_share (PosShare.mem_left_op_right fullShare.right.right)).1 $$ H1
  icases Hs with ⟨S2, H1⟩
  ihave Hs := (pointsTo_share (PosShare.mem_left_op_right fullShare.right.right.right)).1 $$ H1
  icases Hs with ⟨S3, H1⟩
  ihave Hs := (pointsTo_share (PosShare.mem_left_op_right fullShare.right.right.right.right)).1 $$ H1
  icases Hs with ⟨S4, H1⟩
  ihave Hs := (pointsTo_share (PosShare.mem_left_op_right fullShare.right.right.right.right.right)).1 $$ H1
  icases Hs with ⟨S5, S6⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [H2]; · iexact H2
  isplitl [H3]; · iexact H3
  iexact H4

/-! ## The closing transpose -/

/-- The two buffers the closing line touches: the result array and its transposed copy. -/
abbrev tailSet : Finset (DevRef τ sig) := {Proc.devRef .tc main_v4, Proc.devRef .tc main_v5}

/-- The contents at the region's exit: the result array as the write-backs left it, every other buffer as the
    region found it. -/
def Wexit (c : Dev nD) : Valuation τ sig (Elt F) :=
  Function.update (V0 m c) (Proc.devRef .tc main_v4) ((dats m 0 c).arrAt 9 cfg0.N)

/-- What the program's result buffer holds at the end: the closing line's value at the exit contents. -/
def outT (c : Dev nD) : Buf (Elt F) ((c : Thread nD τ).loc main_v5) :=
  StableHlo.after [hostOps1].flatten (Wexit m c) (Proc.devRef .tc main_v5)

theorem held_tail (c : Dev nD) (W : Valuation τ sig (Elt F)) :
    (StableHlo.held (Ix := Unit) (Name := ℕ) (U := UR sig nD τ) (Lvl := ℕ) (c.tc : Thread nD τ) tailSet W : sProp 𝕄)
      = iprop((((c : Thread nD τ).loc main_v4) ↦{fullShare} W (Proc.devRef .tc main_v4))
          ∗ (((c : Thread nD τ).loc main_v5) ↦{fullShare} W (Proc.devRef .tc main_v5))) := by
  unfold StableHlo.held tailSet
  rw [bigSep_insert (by decide), bigSep_singleton]
  rfl

theorem Wexit_v4 (c : Dev nD) : Wexit m c (Proc.devRef .tc main_v4) = (dats m 0 c).arrAt 9 cfg0.N := by
  unfold Wexit; exact Function.update_self _ _ _

theorem Wexit_v5 (c : Dev nD) : Wexit m c (Proc.devRef .tc main_v5) = V m c main_v5 := by
  unfold Wexit; exact Function.update_of_ne (by decide) _ _

/-- The closing line leaves the result array as it was. -/
theorem after_tail_v4 (c : Dev nD) :
    StableHlo.after [hostOps1].flatten (Wexit m c) (Proc.devRef .tc main_v4) = (dats m 0 c).arrAt 9 cfg0.N := by
  rw [StableHlo.after_of_forall_not_mem (b := Proc.devRef .tc main_v4) _ _ (List.forall_iff_forall_mem.mp (by
    simp only [hostOps1, List.flatten_cons, List.flatten_nil, List.append_nil, List.Forall, StableHlo.unary_writes, Finset.mem_singleton]
    exact StableHlo.devRef_ne_of_ne (by decide)))]
  exact Wexit_v4 m c

/-- The value the closing line writes: the transpose of the result array. -/
theorem outT_eq (c : Dev nD) :
    outT m c = transpose S2048x324 [1, 0] ((dats m 0 c).arrAt 9 cfg0.N) transposes_S324x2048_S2048x324_1_0 := by
  unfold outT
  simp only [hostOps1, List.flatten_cons, List.flatten_nil, List.append_nil]
  rw [StableHlo.after_cons, StableHlo.after_nil, StableHlo.unary_result', Wexit_v4]

/-- The bypassing buffers after the closing line: as the region found them, but the program's result buffer at the
    closing line's value. -/
def Vfin (c : Dev nD) (b : Ref sig .tc) : Buf (Elt F) ((c : Thread nD τ).loc b) :=
  Function.update (V m c) main_v5 (outT m c) b

theorem Vfin_ne (c : Dev nD) (b : Ref sig .tc) (h : b ≠ main_v5) : Vfin m c b = V m c b := by
  unfold Vfin; exact Function.update_of_ne h _ _

theorem Vfin_v5 (c : Dev nD) : Vfin m c main_v5 = outT m c := by
  unfold Vfin; exact Function.update_self _ _ _

theorem tail_sub : ∀ ops ∈ ([hostOps1] : List (List (HloOp τ sig (Elt F)))), ∀ op ∈ ops, op.bufs ⊆ tailSet := by
  intro ops hops op hop
  rw [List.mem_singleton] at hops; subst hops
  rw [List.mem_singleton] at hop; subst hop
  exact Finset.Subset.refl _

theorem tail_fresh : ∀ ops ∈ ([hostOps1] : List (List (HloOp τ sig (Elt F)))), ∀ op ∈ ops, op.fresh = ∅ := by
  intro ops hops op hop
  rw [List.mem_singleton] at hops; subst hops
  rw [List.mem_singleton] at hop; subst hop
  rfl

set_option backward.isDefEq.respectTransparency.types false in
/-- The closing line alone: holding the result array at its final contents and the target buffer, the transpose runs
    and hands both back, the target at the transpose. -/
theorem tail_step (c : Dev nD) (Q' : PUnit → sProp 𝕄) :
    iprop(boundary (c.tc : Thread nD τ) ∗ (((c : Thread nD τ).loc main_v4) ↦{fullShare} (dats m 0 c).arrAt 9 cfg0.N)
        ∗ (((c : Thread nD τ).loc main_v5) ↦{fullShare} V m c main_v5))
      ⊢ iprop(((boundary (c.tc : Thread nD τ) ∗ (((c : Thread nD τ).loc main_v4) ↦{fullShare} (dats m 0 c).arrAt 9 cfg0.N)
                  ∗ (((c : Thread nD τ).loc main_v5) ↦{fullShare} outT m c))
                -∗ wp frame (wpE (Pipeline.defs (fun q => (cfgs q).toPCfg (Val := Elt F)) defs₀) (Variants.lift Variants.none) (c.tc : Thread nD τ) none) Set.univ
                    (Pipeline.chain []) Q')
          -∗ wp frame (wpE (Pipeline.defs (fun q => (cfgs q).toPCfg (Val := Elt F)) defs₀) (Variants.lift Variants.none) (c.tc : Thread nD τ) none) Set.univ
              (Pipeline.chain ([hostOps1].map StableHlo.seq)) Q') := by
  have h := Pipeline.wp_seqs_then (Ix := Unit) (Name := ℕ) (U := UR sig nD τ) (Lvl := ℕ) (fun q => (cfgs q).toPCfg (Val := Elt F)) defs₀ Variants.none c tailSet []
    [hostOps1] tail_sub tail_fresh (Wexit m c) (K := Q')
  rw [held_tail, held_tail, Wexit_v4, Wexit_v5, after_tail_v4, List.append_nil] at h
  exact h

set_option backward.isDefEq.respectTransparency.types false in
/-- THE CLOSING LINE from the region's exit: holding the pipeline's arrays at their final contents and the bypassing
    buffers as the region found them, the transpose runs on the result array and its target and hands everything
    back, the target now at the transpose. -/
theorem htail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vfin m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  rw [Pipeline.unscopedRestP_none, Pipeline.unscopedRestP_none, unscopedRest0_eq, unscopedRest0_eq, arrays_eq', bigSep_W0, share_9,
    Vfin_ne m c main_arg0 (by decide), Vfin_ne m c main_arg1 (by decide), Vfin_ne m c main_arg2 (by decide), Vfin_ne m c main_v0 (by decide), Vfin_v5]
  iintro ⟨Hk, Hb, ⟨A0, A1, A2, A3, A4, A5, A6, A7, A8, A9⟩, ⟨R0, R1, R2, R3, R4⟩⟩
  iapply (tail_step m c Q') $$ [Hb A9 R4]
  · isplitl [Hb]; · iexact Hb
    isplitl [A9]; · iexact A9
    iexact R4
  iintro ⟨Hb, A9, R4⟩
  iapply (show iprop(Q' ⟨⟩) ⊢ wp frame (wpE (Pipeline.defs (fun q => (cfgs q).toPCfg (Val := Elt F)) defs₀) (Variants.lift Variants.none) (c.tc : Thread nD τ) none) Set.univ
      (Pipeline.chain []) Q' from by
    rw [Pipeline.chain_nil, wp_pure]; iintro H; imodintro; iexact H)
  iapply Hk
  isplitr [R0 R1 R2 R3 R4]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  · isplitl [R0]; · iexact R0
    isplitl [R1]; · iexact R1
    isplitl [R2]; · iexact R2
    isplitl [R3]; · iexact R3
    iexact R4

/-! ## The run -/

set_option backward.isDefEq.respectTransparency.types false in
/-- From any memory with zero counters every weakly fair execution of @main terminates without a fault; at the end the
    program's result buffer holds the transpose of the pipeline's result array as the write-backs left it, and the
    three argument arrays hold what they held at launch. -/
theorem run_main : θ_run defs (onTc (τ := τ) (main (F := F))) ⟨m, fun _ => 0, ρ⟩ (fun r => ∀ c : Dev nD,
      r.2.mem ((c.tc : Thread nD τ).loc main_v5) = outT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vfin m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Vfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vfin m c) s')
      isplitl [HU] <;> iassumption)
    (hQ := fun s h c => by
      have hr := (h c).2.2
      have mem : ∀ b : Ref sig .tc, b.isScoped = false → (∀ w, (spec0 w).arr.view.ref ≠ b) →
          b ∈ Pipeline.restRefsP sig Pipeline.Prefetch.none spec0 := fun b hs ha =>
        Finset.mem_sdiff.mpr ⟨Pipeline.mem_restRefs_of b hs ha, fun hk => by
          obtain ⟨k, -, -⟩ := Finset.mem_image.mp hk; exact k.elim0⟩
      refine ⟨(hr main_v5 (mem _ (by decide) (by decide))).trans (Vfin_v5 m c), ?_, ?_, ?_⟩
      · exact ((hr main_arg0 (mem _ (by decide) (by decide))).trans (Vfin_ne m c _ (by decide))).trans (V_main_arg0 m c)
      · exact ((hr main_arg1 (mem _ (by decide) (by decide))).trans (Vfin_ne m c _ (by decide))).trans (V_main_arg1 m c)
      · exact ((hr main_arg2 (mem _ (by decide) (by decide))).trans (Vfin_ne m c _ (by decide))).trans (V_main_arg2 m c))

end Cert.KernelIdeal.Hand

end
-- ==== Proof.Spec.lean ====
/-
  The mathematics both programs compute, stated once over the three argument arrays and free of either program.

  The input x is a batch of 2048 feature maps with 256 channels on a 7 x 7 grid, w a 256 x 324 weight matrix and b a
  1 x 324 bias row. Both programs average-pool each channel over its 49 grid cells, as the SUM of the cells times one
  fixed scale, the f32 word nearest 1/49, which both spell with the same bits, and then apply the affine map.

  They differ in the order of the arithmetic. One pools by rows of the grid (seven partial sums of seven cells each),
  scales the pooled value and then contracts it with w; the other pools the 49 cells of the flattened grid in one sum
  and contracts with the weights scaled beforehand. On the extended reals addition and multiplication are commutative
  and associative (also at the infinities), so the two orders give one value; no distributivity is used.
-/
import Idealize.ShloMosaic.Lib.ValueIdx
import Idealize.ShloMosaic.PureOps.Ideal

noncomputable section

open scoped BigOperators

namespace Cert.Spec

open Idealize.ShloMosaic Idealize.ShloMosaic.ValueIdx

/-- The three argument shapes and the result shape. -/
abbrev SX : Shape := ⟨4, ![2048, 256, 7, 7]⟩
abbrev SW : Shape := ⟨2, ![256, 324]⟩
abbrev SB : Shape := ⟨2, ![1, 324]⟩
abbrev SO : Shape := ⟨2, ![2048, 324]⟩

/-- The pooling scale as both programs spell it: the exact value of the f32 word 0x3CA72F05 (nearest 1/49). -/
def scale : EReal := Ideal.ofBits .f32 0x3CA72F05#32

/-- Channel c of sample n summed over the grid, row by row: seven row sums of seven cells. -/
def poolRows (x : FVec Ideal SX .f32) (n : Fin 2048) (c : Fin 256) : EReal :=
  ∑ j : Fin 7, ∑ r : Fin 7, x (ix4 n c j r)

/-- The same channel summed over the flattened grid: cell k of 49 is row k / 7, column k % 7. -/
def poolFlat (x : FVec Ideal SX .f32) (n : Fin 2048) (c : Fin 256) : EReal :=
  ∑ k : Fin 49, x (ix4 n c (⟨k.val / 7, by omega⟩ : Fin 7) (⟨k.val % 7, by omega⟩ : Fin 7))

/-- Output (n, o), pooled by rows, the pooled value scaled, then contracted with column o of w; plus the bias. -/
def outRows (x : FVec Ideal SX .f32) (w : FVec Ideal SW .f32) (b : FVec Ideal SB .f32) (n : Fin 2048) (o : Fin 324) : EReal :=
  (∑ c : Fin 256, w (ix2 c o) * (poolRows x n c * scale)) + b (ix2 (0 : Fin 1) o)

/-- Output (n, o), pooled over the flattened grid and contracted with the weights scaled beforehand; plus the bias. -/
def outFlat (x : FVec Ideal SX .f32) (w : FVec Ideal SW .f32) (b : FVec Ideal SB .f32) (n : Fin 2048) (o : Fin 324) : EReal :=
  (∑ c : Fin 256, poolFlat x n c * (w (ix2 c o) * scale)) + b (ix2 (0 : Fin 1) o)

/-- The whole result array in each form. -/
def resRows (x : FVec Ideal SX .f32) (w : FVec Ideal SW .f32) (b : FVec Ideal SB .f32) : FVec Ideal SO .f32 :=
  fun i => outRows x w b (i 0) (i 1)

def resFlat (x : FVec Ideal SX .f32) (w : FVec Ideal SW .f32) (b : FVec Ideal SB .f32) : FVec Ideal SO .f32 :=
  fun i => outFlat x w b (i 0) (i 1)

end Cert.Spec

end
-- ==== Proof.KIValue.lean ====
/-
  What the result array of the kernel program holds after the last grid point, at the exact values, as ONE function
  of the three argument arrays x (2048, 256, 7, 7), w (256, 324), b (1, 324).

  The host first lays the arguments out anew: x is transposed to (7, 7, 2048, 256) and its two grid axes are merged
  into one of 49, w and b are transposed. The region then runs sixteen points. Point t takes, for the 128 samples
  128 t .. 128 t + 127, the seven slabs (7, 128, 256) that hold the seven rows of the 7 x 7 grid, sums each slab over
  its seven cells, adds the seven partial sums from the left and scales by the fixed word; it contracts the result
  with the transposed weights over the 256 channels, adds the bias column, and writes the (324, 128) block back as
  columns 128 t .. 128 t + 127 of the (324, 2048) result. Entry (o, n) of that result is therefore
    (sum over c of w(c, o) * ((sum over j, r of x(n, c, j, r)) * scale)) + b(0, o),
  the specification's output (n, o) pooled by rows; the sixteen blocks tile the array, so it holds this everywhere,
  and the transpose the host takes last is the specification's result.

  The steps: the body's arithmetic at one entry of the stored block; the host's layout operations at one entry; where
  an entry of each block sits in its array; what a point writes back; the cover; the array in the end.
-/
import proofs.«139848_g2000206077643666_pallasbulk_1328_13_alg».proof.Proof.KernelIdealBody
import proofs.«139848_g2000206077643666_pallasbulk_1328_13_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

/-! ## A slab summed over its leading axis -/

/-- At sample n' and channel c the sum over the leading axis is the seven cells added. -/
theorem slab_sum (x : FVec Ideal S7x128x256 .f32) (h : S7x128x256.Reduces [0] S128x256) (hφ : FKind.Formats .f32)
    (hacc : (0x00000000#32 : BitVec 32) = FKind.add.neutral .f32 hφ) (n' : Fin 128) (c : Fin 256) :
    multiReduction (F := Ideal) .add [0] S128x256 x 0x00000000#32 h hφ hacc (ix2 n' c) = ∑ r : Fin 7, x (ix3 r n' c) := by
  refine (Ideal.multiReduction_add_single x 0x00000000#32 h hφ hacc (ix2 n' c)).trans ?_
  refine Finset.sum_congr rfl fun r _ => congrArg x ?_
  funext a
  apply Fin.ext
  match a with
  | ⟨0, _⟩ => rfl
  | ⟨1, _⟩ => rfl
  | ⟨2, _⟩ => rfl

/-! ## The contraction with the transposed weights -/

/-- Left operand, axis 0: the output row. -/
theorem lhs_row (i : S324x128.Idx) (q : dot_S324x256_S128x256_S324x128_1_1_0_0_n_n.contr.Idx) : (dot_S324x256_S128x256_S324x128_1_1_0_0_n_n.lhsIdx i q 0).val = (i 0).val := by
  unfold DotDims.lhsIdx
  rw [dif_neg (show ¬(0 : Fin S324x256.rank) ∈ dot_S324x256_S128x256_S324x128_1_1_0_0_n_n.lhsBatch by decide),
    dif_pos (show (0 : Fin S324x256.rank) ∈ dot_S324x256_S128x256_S324x128_1_1_0_0_n_n.lhsNonContracting by decide)]
  rfl
/-- Left operand, axis 1: the contracted channel. -/
theorem lhs_chan (i : S324x128.Idx) (q : dot_S324x256_S128x256_S324x128_1_1_0_0_n_n.contr.Idx) : (dot_S324x256_S128x256_S324x128_1_1_0_0_n_n.lhsIdx i q 1).val = (q ⟨0, by decide⟩).val :=
  dot_S324x256_S128x256_S324x128_1_1_0_0_n_n.lhsIdx_val_of_single rfl i q
/-- Right operand, axis 0: the sample. -/
theorem rhs_samp (i : S324x128.Idx) (q : dot_S324x256_S128x256_S324x128_1_1_0_0_n_n.contr.Idx) : (dot_S324x256_S128x256_S324x128_1_1_0_0_n_n.rhsIdx i q 0).val = (i 1).val := by
  unfold DotDims.rhsIdx
  rw [dif_neg (show ¬(0 : Fin S128x256.rank) ∈ dot_S324x256_S128x256_S324x128_1_1_0_0_n_n.rhsBatch by decide),
    dif_pos (show (0 : Fin S128x256.rank) ∈ dot_S324x256_S128x256_S324x128_1_1_0_0_n_n.rhsNonContracting by decide)]
  rfl
/-- Right operand, axis 1: the contracted channel. -/
theorem rhs_chan (i : S324x128.Idx) (q : dot_S324x256_S128x256_S324x128_1_1_0_0_n_n.contr.Idx) : (dot_S324x256_S128x256_S324x128_1_1_0_0_n_n.rhsIdx i q 1).val = (q ⟨0, by decide⟩).val :=
  dot_S324x256_S128x256_S324x128_1_1_0_0_n_n.rhsIdx_val_of_single rfl i q

/-- The product into the zero accumulator at (o, n'): the sum over the channels of wT(o, c) * p(n', c). -/
theorem matmul_entry (w : FVec Ideal S324x256 .f32) (p : FVec Ideal S128x256 .f32) (o : Fin 324) (n' : Fin 128) :
    matmul dot_S324x256_S128x256_S324x128_1_1_0_0_n_n none w p (constant (F := Ideal) S324x128 .f32 0x00000000#32) (ix2 o n')
      = ∑ c : Fin 256, w (ix2 o c) * p (ix2 n' c) := by
  show FloatOps.matmul dot_S324x256_S128x256_S324x128_1_1_0_0_n_n none w p (constant (F := Ideal) S324x128 .f32 0x00000000#32) (ix2 o n') = _
  rw [Ideal.matmul_constant_zero_apply, ← Equiv.sum_comp (contrEquiv1 dot_S324x256_S128x256_S324x128_1_1_0_0_n_n 256 rfl rfl).symm]
  refine Finset.sum_congr rfl fun k _ => ?_
  have hk := contrEquiv1_symm_val dot_S324x256_S128x256_S324x128_1_1_0_0_n_n 256 rfl rfl k
  have el : dot_S324x256_S128x256_S324x128_1_1_0_0_n_n.lhsIdx (ix2 o n') ((contrEquiv1 dot_S324x256_S128x256_S324x128_1_1_0_0_n_n 256 rfl rfl).symm k) = ix2 o k := funext fun a => Fin.ext (by
    match a with
    | ⟨0, _⟩ => exact lhs_row _ _
    | ⟨1, _⟩ => exact (lhs_chan _ _).trans hk)
  have er : dot_S324x256_S128x256_S324x128_1_1_0_0_n_n.rhsIdx (ix2 o n') ((contrEquiv1 dot_S324x256_S128x256_S324x128_1_1_0_0_n_n 256 rfl rfl).symm k) = ix2 n' k := funext fun a => Fin.ext (by
    match a with
    | ⟨0, _⟩ => exact rhs_samp _ _
    | ⟨1, _⟩ => exact (rhs_chan _ _).trans hk)
  rw [el, er]

/-! ## The bias column along the samples -/

/-- A (324, 1) column broadcast to (324, 128) reads, at (o, n'), the column's row o. -/
theorem column_entry {α : Type} (b : S324x1.Idx → α) (h : S324x1.Broadcasts S324x128) (o : Fin 324) (n' : Fin 128) :
    broadcastTo S324x128 b h (ix2 o n') = b (ix2 o (0 : Fin 1)) :=
  broadcastTo_apply b h (ix2 o n') (ix2 o (0 : Fin 1)) fun a => by
    match a with
    | ⟨0, _⟩ => rfl
    | ⟨1, _⟩ => rfl

/-! ## The two payloads at an entry -/

/-- A slab read through a cast to its own shape and summed over its leading axis; the zero word's equation is stated
    between the two literal words. -/
theorem slab_sum' (x : Vec Ideal S7x128x256 .f32) (hc : S7x128x256.ShapeCasts S7x128x256) (h : S7x128x256.Reduces [0] S128x256)
    (hφ : FKind.Formats .f32) (hacc : (0x00000000#32 : BitVec 32) = 0x00000000#32) (n' : Fin 128) (c : Fin 256) :
    multiReduction (F := Ideal) .add [0] S128x256 (shapeCast S7x128x256 x hc) 0x00000000#32 h hφ hacc (ix2 n' c)
      = ∑ r : Fin 7, x (ix3 r n' c) := by
  rw [shapeCast_self]
  exact slab_sum x h hφ hacc n' c

/-- The pooled value at sample n' and channel c: the seven slab sums added from the left, times the scale. -/
theorem pooled_entry (x0 x1 x2 x3 x4 x5 x6 : Vec Ideal S7x128x256 .f32) (n' : Fin 128) (c : Fin 256) :
    k0_pay2 (F := Ideal) x0 x1 x2 x3 x4 x5 x6 (ix2 n' c)
      = (((((((∑ r : Fin 7, x0 (ix3 r n' c)) + ∑ r : Fin 7, x1 (ix3 r n' c)) + ∑ r : Fin 7, x2 (ix3 r n' c))
          + ∑ r : Fin 7, x3 (ix3 r n' c)) + ∑ r : Fin 7, x4 (ix3 r n' c)) + ∑ r : Fin 7, x5 (ix3 r n' c))
          + ∑ r : Fin 7, x6 (ix3 r n' c)) * Cert.Spec.scale := by
  unfold k0_pay2
  dsimp only
  simp only [mulf_apply, addf_apply, broadcast_apply]
  refine congrArg₂ (· * ·) ?_ rfl
  refine congrArg₂ (· + ·) (congrArg₂ (· + ·) (congrArg₂ (· + ·) (congrArg₂ (· + ·) (congrArg₂ (· + ·)
    (congrArg₂ (· + ·) ?_ ?_) ?_) ?_) ?_) ?_) ?_
  all_goals exact slab_sum' _ _ _ _ _ n' c

/-- The stored value at output row o and sample n': the pooled row of sample n' contracted with row o of the transposed
    weights, plus row o of the bias column. -/
theorem stored_entry (p : FVec Ideal S128x256 .f32) (w : Vec Ideal S324x256 .f32) (b : Vec Ideal S324x1 .f32)
    (o : Fin 324) (n' : Fin 128) :
    k0_pay1 (F := Ideal) p w b (ix2 o n') = (∑ c : Fin 256, w (ix2 o c) * p (ix2 n' c)) + b (ix2 o (0 : Fin 1)) := by
  unfold k0_pay1
  simp only [addf_apply, shapeCast_self]
  exact congrArg₂ (· + ·) (matmul_entry w p o n') (column_entry b _ o n')

/-! ## The stored entry as the specification's -/

/-- If the seven slabs hold rows j = 0 .. 6 of sample n of x, the weights block the transpose of w and the bias block
    the transpose of b, then the stored entry at (o, n') is the specification's output (n, o): the sum over j = 0 .. 6
    from the left is the sum over the seven rows, so the two are the same term. -/
theorem stored_is_spec (X : FVec Ideal Cert.Spec.SX .f32) (W : FVec Ideal Cert.Spec.SW .f32) (B : FVec Ideal Cert.Spec.SB .f32)
    (x0 x1 x2 x3 x4 x5 x6 : Vec Ideal S7x128x256 .f32) (w : Vec Ideal S324x256 .f32) (b : Vec Ideal S324x1 .f32)
    (n : Fin 2048) (o : Fin 324) (n' : Fin 128)
    (h0 : ∀ (r : Fin 7) (ch : Fin 256), x0 (ix3 r n' ch) = X (ix4 n ch (0 : Fin 7) r))
    (h1 : ∀ (r : Fin 7) (ch : Fin 256), x1 (ix3 r n' ch) = X (ix4 n ch (1 : Fin 7) r))
    (h2 : ∀ (r : Fin 7) (ch : Fin 256), x2 (ix3 r n' ch) = X (ix4 n ch (2 : Fin 7) r))
    (h3 : ∀ (r : Fin 7) (ch : Fin 256), x3 (ix3 r n' ch) = X (ix4 n ch (3 : Fin 7) r))
    (h4 : ∀ (r : Fin 7) (ch : Fin 256), x4 (ix3 r n' ch) = X (ix4 n ch (4 : Fin 7) r))
    (h5 : ∀ (r : Fin 7) (ch : Fin 256), x5 (ix3 r n' ch) = X (ix4 n ch (5 : Fin 7) r))
    (h6 : ∀ (r : Fin 7) (ch : Fin 256), x6 (ix3 r n' ch) = X (ix4 n ch (6 : Fin 7) r))
    (hw : ∀ ch : Fin 256, w (ix2 o ch) = W (ix2 ch o)) (hb : b (ix2 o (0 : Fin 1)) = B (ix2 (0 : Fin 1) o)) :
    k0_pay1 (F := Ideal) (k0_pay2 (F := Ideal) x0 x1 x2 x3 x4 x5 x6) w b (ix2 o n') = Cert.Spec.outRows X W B n o := by
  rw [stored_entry, hb]
  unfold Cert.Spec.outRows Cert.Spec.poolRows
  refine congrArg (· + B (ix2 (0 : Fin 1) o)) (Finset.sum_congr rfl fun ch _ => ?_)
  rw [hw ch, pooled_entry]
  simp only [h0, h1, h2, h3, h4, h5, h6]
  rw [Fin.sum_univ_seven (fun j : Fin 7 => ∑ r : Fin 7, X (ix4 n ch j r))]

/-! ## The arrays as the region finds them, at an entry

Before the region the host lays the arguments out anew: x (2048, 256, 7, 7) is transposed to (7, 7, 2048, 256) and the
two grid axes are merged, so that the spatially-major array holds x(n, c, j, r) at (7 j + r, n, c); w (256, 324) and
b (1, 324) are transposed. -/

variable (m : (ℓ : Loc nD τ sig) → Buf (Elt Ideal) ℓ)

/-- The spatially-major array at (k, n, c), with k = 7 j + r, is x at (n, c, j, r). -/
theorem slabs_entry (c : Dev nD) (k : Fin 49) (n : Fin 2048) (ch : Fin 256) (j r : Fin 7) (hk : k.val = 7 * j.val + r.val) :
    (V m c main_v1 : S49x2048x256.Idx → EReal) (ix3 k n ch)
      = (m ((c.tc : Thread nD τ).loc main_arg0) : S2048x256x7x7.Idx → EReal) (ix4 n ch j r) := by
  have e : (V m c main_v1 : S49x2048x256.Idx → EReal)
      = shapeCast S49x2048x256 (transpose S7x7x2048x256 [2, 3, 0, 1]
          (m ((c.tc : Thread nD τ).loc main_arg0) : S2048x256x7x7.Idx → EReal) transposes_S2048x256x7x7_S7x7x2048x256_2_3_0_1)
          shapeCasts_S7x7x2048x256_S49x2048x256 := by
    dsimp only [V, V0, hostOps0]
    simp only [List.flatten_cons, List.flatten_nil, List.append_nil]
    after_results
    rfl
  rw [e]
  refine (shapeCast_apply _ _ (ix3 k n ch) (ix4 j r n ch) ?_).trans ?_
  · rw [Shape.rowMajor_val_four, Shape.rowMajor_val_three]
    show ((j.val * 7 + r.val) * 2048 + n.val) * 256 + ch.val = (k.val * 2048 + n.val) * 256 + ch.val
    rw [hk]; ring
  · refine transpose_apply _ _ _ (ix4 j r n ch) (ix4 n ch j r) fun b => ?_
    match b with
    | ⟨0, _⟩ => rfl
    | ⟨1, _⟩ => rfl
    | ⟨2, _⟩ => rfl
    | ⟨3, _⟩ => rfl

/-- The transposed weights at (o, c) are w at (c, o). -/
theorem weights_entry (c : Dev nD) (o : Fin 324) (ch : Fin 256) :
    (V m c main_v2 : S324x256.Idx → EReal) (ix2 o ch)
      = (m ((c.tc : Thread nD τ).loc main_arg1) : S256x324.Idx → EReal) (ix2 ch o) := by
  have e : (V m c main_v2 : S324x256.Idx → EReal)
      = transpose S324x256 [1, 0] (m ((c.tc : Thread nD τ).loc main_arg1) : S256x324.Idx → EReal) transposes_S256x324_S324x256_1_0 := by
    dsimp only [V, V0, hostOps0]
    simp only [List.flatten_cons, List.flatten_nil, List.append_nil]
    after_results
  rw [e]
  refine transpose_apply _ _ _ (ix2 o ch) (ix2 ch o) fun b => ?_
  match b with
  | ⟨0, _⟩ => rfl
  | ⟨1, _⟩ => rfl

/-- The bias column at (o, 0) is b at (0, o). -/
theorem bias_entry (c : Dev nD) (o : Fin 324) :
    (V m c main_v3 : S324x1.Idx → EReal) (ix2 o (0 : Fin 1))
      = (m ((c.tc : Thread nD τ).loc main_arg2) : S1x324.Idx → EReal) (ix2 (0 : Fin 1) o) := by
  have e : (V m c main_v3 : S324x1.Idx → EReal)
      = transpose S324x1 [1, 0] (m ((c.tc : Thread nD τ).loc main_arg2) : S1x324.Idx → EReal) transposes_S1x324_S324x1_1_0 := by
    dsimp only [V, V0, hostOps0]
    simp only [List.flatten_cons, List.flatten_nil, List.append_nil]
    after_results
  rw [e]
  refine transpose_apply _ _ _ (ix2 o (0 : Fin 1)) (ix2 (0 : Fin 1) o) fun b => ?_
  match b with
  | ⟨0, _⟩ => rfl
  | ⟨1, _⟩ => rfl

/-! ## The blocks of a grid point

At grid point t the seven slab windows hold rows 7 j .. 7 j + 6 (j = 0 .. 6) and samples 128 t .. 128 t + 127 of the
spatially-major array; the weights and the bias windows hold their whole arrays; the output window is columns
128 t .. 128 t + 127 of the (324, 2048) result. A block's entry sits in its array, on each axis, at block index times
block size plus its own coordinate. -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices, decided over the sixteen points: slab window j is at (j, t, 0). -/
theorem slab_index : ∀ t : Fin cfg0.N,
    (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 2 ∧ win0_2.index t (1 : Fin 3) = t.val ∧ win0_2.index t (2 : Fin 3) = 0)
    ∧ (win0_3.index t (0 : Fin 3) = 3 ∧ win0_3.index t (1 : Fin 3) = t.val ∧ win0_3.index t (2 : Fin 3) = 0)
    ∧ (win0_4.index t (0 : Fin 3) = 4 ∧ win0_4.index t (1 : Fin 3) = t.val ∧ win0_4.index t (2 : Fin 3) = 0)
    ∧ (win0_5.index t (0 : Fin 3) = 5 ∧ win0_5.index t (1 : Fin 3) = t.val ∧ win0_5.index t (2 : Fin 3) = 0)
    ∧ (win0_6.index t (0 : Fin 3) = 6 ∧ win0_6.index t (1 : Fin 3) = t.val ∧ win0_6.index t (2 : Fin 3) = 0) :=
  (by decide +kernel : ∀ t : Fin grid0.N, _)

/-- The weights and the bias windows are at (0, 0); the output window is at (0, t). -/
theorem rest_index : ∀ t : Fin cfg0.N,
    (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = t.val) :=
  (by decide +kernel : ∀ t : Fin grid0.N, _)

/-- Slab 0 of point t at (r, n', c) is the spatially-major array at (r, 128 t + n', c). -/
theorem slab0_entry (c : Dev nD) (t : Fin cfg0.N) (r : Fin 7) (n' : Fin 128) (ch : Fin 256) (k : Fin 49) (n : Fin 2048)
    (hk : k.val = 7 * 0 + r.val) (hn : n.val = 128 * t.val + n'.val) :
    (iblk m c 0 t : Vec Ideal S7x128x256 .f32) (ix3 r n' ch) = (V m c main_v1 : S49x2048x256.Idx → EReal) (ix3 k n ch) := by
  obtain ⟨e0, e1, e2⟩ := (slab_index t).1
  unfold iblk
  rw [View.read_apply]
  show (V m c main_v1 : S49x2048x256.Idx → EReal) _ = _
  congr 1
  funext a
  apply Fin.ext
  match a with
  | ⟨0, _⟩ => show win0_0.index t (0 : Fin 3) * 7 + 1 * r.val = k.val; rw [e0, hk]; omega
  | ⟨1, _⟩ => show win0_0.index t (1 : Fin 3) * 128 + 1 * n'.val = n.val; rw [e1, hn]; omega
  | ⟨2, _⟩ => show win0_0.index t (2 : Fin 3) * 256 + 1 * ch.val = ch.val; rw [e2]; omega

/-- Slab 1 of point t at (r, n', c) is the spatially-major array at (7 + r, 128 t + n', c). -/
theorem slab1_entry (c : Dev nD) (t : Fin cfg0.N) (r : Fin 7) (n' : Fin 128) (ch : Fin 256) (k : Fin 49) (n : Fin 2048)
    (hk : k.val = 7 * 1 + r.val) (hn : n.val = 128 * t.val + n'.val) :
    (iblk m c 1 t : Vec Ideal S7x128x256 .f32) (ix3 r n' ch) = (V m c main_v1 : S49x2048x256.Idx → EReal) (ix3 k n ch) := by
  obtain ⟨e0, e1, e2⟩ := (slab_index t).2.1
  unfold iblk
  rw [View.read_apply]
  show (V m c main_v1 : S49x2048x256.Idx → EReal) _ = _
  congr 1
  funext a
  apply Fin.ext
  match a with
  | ⟨0, _⟩ => show win0_1.index t (0 : Fin 3) * 7 + 1 * r.val = k.val; rw [e0, hk]; omega
  | ⟨1, _⟩ => show win0_1.index t (1 : Fin 3) * 128 + 1 * n'.val = n.val; rw [e1, hn]; omega
  | ⟨2, _⟩ => show win0_1.index t (2 : Fin 3) * 256 + 1 * ch.val = ch.val; rw [e2]; omega

/-- Slab 2 of point t at (r, n', c) is the spatially-major array at (14 + r, 128 t + n', c). -/
theorem slab2_entry (c : Dev nD) (t : Fin cfg0.N) (r : Fin 7) (n' : Fin 128) (ch : Fin 256) (k : Fin 49) (n : Fin 2048)
    (hk : k.val = 7 * 2 + r.val) (hn : n.val = 128 * t.val + n'.val) :
    (iblk m c 2 t : Vec Ideal S7x128x256 .f32) (ix3 r n' ch) = (V m c main_v1 : S49x2048x256.Idx → EReal) (ix3 k n ch) := by
  obtain ⟨e0, e1, e2⟩ := (slab_index t).2.2.1
  unfold iblk
  rw [View.read_apply]
  show (V m c main_v1 : S49x2048x256.Idx → EReal) _ = _
  congr 1
  funext a
  apply Fin.ext
  match a with
  | ⟨0, _⟩ => show win0_2.index t (0 : Fin 3) * 7 + 1 * r.val = k.val; rw [e0, hk]; omega
  | ⟨1, _⟩ => show win0_2.index t (1 : Fin 3) * 128 + 1 * n'.val = n.val; rw [e1, hn]; omega
  | ⟨2, _⟩ => show win0_2.index t (2 : Fin 3) * 256 + 1 * ch.val = ch.val; rw [e2]; omega

/-- Slab 3 of point t at (r, n', c) is the spatially-major array at (21 + r, 128 t + n', c). -/
theorem slab3_entry (c : Dev nD) (t : Fin cfg0.N) (r : Fin 7) (n' : Fin 128) (ch : Fin 256) (k : Fin 49) (n : Fin 2048)
    (hk : k.val = 7 * 3 + r.val) (hn : n.val = 128 * t.val + n'.val) :
    (iblk m c 3 t : Vec Ideal S7x128x256 .f32) (ix3 r n' ch) = (V m c main_v1 : S49x2048x256.Idx → EReal) (ix3 k n ch) := by
  obtain ⟨e0, e1, e2⟩ := (slab_index t).2.2.2.1
  unfold iblk
  rw [View.read_apply]
  show (V m c main_v1 : S49x2048x256.Idx → EReal) _ = _
  congr 1
  funext a
  apply Fin.ext
  match a with
  | ⟨0, _⟩ => show win0_3.index t (0 : Fin 3) * 7 + 1 * r.val = k.val; rw [e0, hk]; omega
  | ⟨1, _⟩ => show win0_3.index t (1 : Fin 3) * 128 + 1 * n'.val = n.val; rw [e1, hn]; omega
  | ⟨2, _⟩ => show win0_3.index t (2 : Fin 3) * 256 + 1 * ch.val = ch.val; rw [e2]; omega

/-- Slab 4 of point t at (r, n', c) is the spatially-major array at (28 + r, 128 t + n', c). -/
theorem slab4_entry (c : Dev nD) (t : Fin cfg0.N) (r : Fin 7) (n' : Fin 128) (ch : Fin 256) (k : Fin 49) (n : Fin 2048)
    (hk : k.val = 7 * 4 + r.val) (hn : n.val = 128 * t.val + n'.val) :
    (iblk m c 4 t : Vec Ideal S7x128x256 .f32) (ix3 r n' ch) = (V m c main_v1 : S49x2048x256.Idx → EReal) (ix3 k n ch) := by
  obtain ⟨e0, e1, e2⟩ := (slab_index t).2.2.2.2.1
  unfold iblk
  rw [View.read_apply]
  show (V m c main_v1 : S49x2048x256.Idx → EReal) _ = _
  congr 1
  funext a
  apply Fin.ext
  match a with
  | ⟨0, _⟩ => show win0_4.index t (0 : Fin 3) * 7 + 1 * r.val = k.val; rw [e0, hk]; omega
  | ⟨1, _⟩ => show win0_4.index t (1 : Fin 3) * 128 + 1 * n'.val = n.val; rw [e1, hn]; omega
  | ⟨2, _⟩ => show win0_4.index t (2 : Fin 3) * 256 + 1 * ch.val = ch.val; rw [e2]; omega

/-- Slab 5 of point t at (r, n', c) is the spatially-major array at (35 + r, 128 t + n', c). -/
theorem slab5_entry (c : Dev nD) (t : Fin cfg0.N) (r : Fin 7) (n' : Fin 128) (ch : Fin 256) (k : Fin 49) (n : Fin 2048)
    (hk : k.val = 7 * 5 + r.val) (hn : n.val = 128 * t.val + n'.val) :
    (iblk m c 5 t : Vec Ideal S7x128x256 .f32) (ix3 r n' ch) = (V m c main_v1 : S49x2048x256.Idx → EReal) (ix3 k n ch) := by
  obtain ⟨e0, e1, e2⟩ := (slab_index t).2.2.2.2.2.1
  unfold iblk
  rw [View.read_apply]
  show (V m c main_v1 : S49x2048x256.Idx → EReal) _ = _
  congr 1
  funext a
  apply Fin.ext
  match a with
  | ⟨0, _⟩ => show win0_5.index t (0 : Fin 3) * 7 + 1 * r.val = k.val; rw [e0, hk]; omega
  | ⟨1, _⟩ => show win0_5.index t (1 : Fin 3) * 128 + 1 * n'.val = n.val; rw [e1, hn]; omega
  | ⟨2, _⟩ => show win0_5.index t (2 : Fin 3) * 256 + 1 * ch.val = ch.val; rw [e2]; omega

/-- Slab 6 of point t at (r, n', c) is the spatially-major array at (42 + r, 128 t + n', c). -/
theorem slab6_entry (c : Dev nD) (t : Fin cfg0.N) (r : Fin 7) (n' : Fin 128) (ch : Fin 256) (k : Fin 49) (n : Fin 2048)
    (hk : k.val = 7 * 6 + r.val) (hn : n.val = 128 * t.val + n'.val) :
    (iblk m c 6 t : Vec Ideal S7x128x256 .f32) (ix3 r n' ch) = (V m c main_v1 : S49x2048x256.Idx → EReal) (ix3 k n ch) := by
  obtain ⟨e0, e1, e2⟩ := (slab_index t).2.2.2.2.2.2
  unfold iblk
  rw [View.read_apply]
  show (V m c main_v1 : S49x2048x256.Idx → EReal) _ = _
  congr 1
  funext a
  apply Fin.ext
  match a with
  | ⟨0, _⟩ => show win0_6.index t (0 : Fin 3) * 7 + 1 * r.val = k.val; rw [e0, hk]; omega
  | ⟨1, _⟩ => show win0_6.index t (1 : Fin 3) * 128 + 1 * n'.val = n.val; rw [e1, hn]; omega
  | ⟨2, _⟩ => show win0_6.index t (2 : Fin 3) * 256 + 1 * ch.val = ch.val; rw [e2]; omega

/-- The weights window holds the whole transposed weights. -/
theorem weights_block (c : Dev nD) (t : Fin cfg0.N) (o : Fin 324) (ch : Fin 256) :
    (iblk m c 7 t : Vec Ideal S324x256 .f32) (ix2 o ch) = (V m c main_v2 : S324x256.Idx → EReal) (ix2 o ch) := by
  obtain ⟨e0, e1⟩ := (rest_index t).1
  unfold iblk
  rw [View.read_apply]
  show (V m c main_v2 : S324x256.Idx → EReal) _ = _
  congr 1
  funext a
  apply Fin.ext
  match a with
  | ⟨0, _⟩ => show win0_7.index t (0 : Fin 2) * 324 + 1 * o.val = o.val; rw [e0]; omega
  | ⟨1, _⟩ => show win0_7.index t (1 : Fin 2) * 256 + 1 * ch.val = ch.val; rw [e1]; omega

/-- The bias window holds the whole bias column. -/
theorem bias_block (c : Dev nD) (t : Fin cfg0.N) (o : Fin 324) :
    (iblk m c 8 t : Vec Ideal S324x1 .f32) (ix2 o (0 : Fin 1)) = (V m c main_v3 : S324x1.Idx → EReal) (ix2 o (0 : Fin 1)) := by
  obtain ⟨e0, e1⟩ := (rest_index t).2.1
  unfold iblk
  rw [View.read_apply]
  show (V m c main_v3 : S324x1.Idx → EReal) _ = _
  congr 1
  funext a
  apply Fin.ext
  match a with
  | ⟨0, _⟩ => show win0_8.index t (0 : Fin 2) * 324 + 1 * o.val = o.val; rw [e0]; omega
  | ⟨1, _⟩ => show win0_8.index t (1 : Fin 2) * 1 + 1 * 0 = 0; rw [e1]

/-- The output window of point t, read off a (324, 2048) array, at (o, n') is the array at (o, 128 t + n'). -/
theorem out_block (A : S324x2048.Idx → EReal) (t : Fin cfg0.N) (o : Fin 324) (n' : Fin 128) (n : Fin 2048)
    (hn : n.val = 128 * t.val + n'.val) :
    (((cfg0.win 9).blk t).view.read (Elt Ideal) A : S324x128.Idx → EReal) (ix2 o n') = A (ix2 o n) := by
  obtain ⟨e0, e1⟩ := (rest_index t).2.2
  rw [View.read_apply]
  show A _ = _
  congr 1
  funext a
  apply Fin.ext
  match a with
  | ⟨0, _⟩ => show win0_9.index t (0 : Fin 2) * 324 + 1 * o.val = o.val; rw [e0]; omega
  | ⟨1, _⟩ => show win0_9.index t (1 : Fin 2) * 128 + 1 * n'.val = n.val; rw [e1, hn]; omega

/-! ## What a point writes back, the cover, and the array in the end -/

/-- The (324, 2048) array the region leaves: entry (o, n) is the specification's output (n, o). -/
abbrev outArr (c : Dev nD) : S324x2048.Idx → EReal := fun i =>
  Cert.Spec.outRows (m ((c.tc : Thread nD τ).loc main_arg0)) (m ((c.tc : Thread nD τ).loc main_arg1))
    (m ((c.tc : Thread nD τ).loc main_arg2)) (i 1) (i 0)

/-- What point t writes back is its block of that array: columns 128 t .. 128 t + 127. -/
theorem flushed_eq (c : Dev nD) (t : Fin cfg0.N) :
    (dats (F := Ideal) m 0 c).flushed 9 t = ((cfg0.win 9).blk t).view.read (Elt Ideal) (outArr m c) := by
  show (cfg0.win 9).cut (grid0.coords t) ((dats (F := Ideal) m 0 c).after 9 t) = _
  rw [after_9]
  unfold out9
  rw [View.canon_unit_zero zeros2]
  simp only [View.ld_unit_zero (S := S7x128x256) zeros3, View.ld_unit_zero (S := S324x256) zeros2,
    View.ld_unit_zero (S := S324x1) zeros2]
  refine funext fun (y : S324x128.Idx) => ?_
  obtain ⟨o, n', rfl⟩ : ∃ (o : Fin 324) (n' : Fin 128), y = ix2 o n' := ⟨y 0, y 1, eq_ix2 y⟩
  have hN : cfg0.N = 16 := N_0
  have ht : t.val < 16 := by have := t.isLt; omega
  have hlt : 128 * t.val + n'.val < 2048 := by have := n'.isLt; omega
  refine Eq.trans ?_ (out_block (outArr m c) t o n' ⟨128 * t.val + n'.val, hlt⟩ rfl).symm
  show _ = Cert.Spec.outRows _ _ _ (⟨128 * t.val + n'.val, hlt⟩ : Fin 2048) o
  exact stored_is_spec _ _ _ (iblk m c 0 t) (iblk m c 1 t) (iblk m c 2 t) (iblk m c 3 t) (iblk m c 4 t) (iblk m c 5 t)
    (iblk m c 6 t) (iblk m c 7 t) (iblk m c 8 t) ⟨128 * t.val + n'.val, hlt⟩ o n'
    (fun r ch => (slab0_entry m c t r n' ch ⟨7 * 0 + r.val, by have := r.isLt; omega⟩ _ rfl rfl).trans (slabs_entry m c _ _ ch 0 r rfl))
    (fun r ch => (slab1_entry m c t r n' ch ⟨7 * 1 + r.val, by have := r.isLt; omega⟩ _ rfl rfl).trans (slabs_entry m c _ _ ch 1 r rfl))
    (fun r ch => (slab2_entry m c t r n' ch ⟨7 * 2 + r.val, by have := r.isLt; omega⟩ _ rfl rfl).trans (slabs_entry m c _ _ ch 2 r rfl))
    (fun r ch => (slab3_entry m c t r n' ch ⟨7 * 3 + r.val, by have := r.isLt; omega⟩ _ rfl rfl).trans (slabs_entry m c _ _ ch 3 r rfl))
    (fun r ch => (slab4_entry m c t r n' ch ⟨7 * 4 + r.val, by have := r.isLt; omega⟩ _ rfl rfl).trans (slabs_entry m c _ _ ch 4 r rfl))
    (fun r ch => (slab5_entry m c t r n' ch ⟨7 * 5 + r.val, by have := r.isLt; omega⟩ _ rfl rfl).trans (slabs_entry m c _ _ ch 5 r rfl))
    (fun r ch => (slab6_entry m c t r n' ch ⟨7 * 6 + r.val, by have := r.isLt; omega⟩ _ rfl rfl).trans (slabs_entry m c _ _ ch 6 r rfl))
    (fun ch => (weights_block m c t o ch).trans (weights_entry m c o ch))
    ((bias_block m c t o).trans (bias_entry m c o))

/-- An entry of the (324, 2048) array is in point t's block iff each coordinate is in the block's range on its axis. -/
theorem mem_out_block (t : Fin cfg0.N) (i : S324x2048.Idx) :
    i ∈ ((cfg0.win 9).blk t).view.set ↔ ∀ a : Fin 2, win0_9.index t a * S324x128.size a ≤ (i a).val
      ∧ (i a).val < win0_9.index t a * S324x128.size a + S324x128.size a := by
  show i ∈ ((View.whole main_v4).slice (win0_9.rect t)).set ↔ _
  rw [View.set_slice_whole, Rect.mem_set_unit]
  exact Iff.rfl

/-- Column n of the array is written back by point n / 128. -/
theorem cover (i : S324x2048.Idx) : ∃ t : Fin cfg0.N, (cfg0.win 9).flush t = true ∧ i ∈ ((cfg0.win 9).blk t).view.set := by
  have hN : cfg0.N = 16 := N_0
  have h0 : (i 0).val < 324 := (i 0).isLt
  have h1 : (i 1).val < 2048 := (i 1).isLt
  have hq : (i 1).val / 128 < cfg0.N := by rw [hN]; omega
  obtain ⟨e0, e1⟩ := (rest_index ⟨(i 1).val / 128, hq⟩).2.2
  refine ⟨⟨(i 1).val / 128, hq⟩, flush0_9 _, ?_⟩
  rw [mem_out_block]
  intro a
  match a with
  | ⟨0, _⟩ =>
    show win0_9.index ⟨(i 1).val / 128, hq⟩ (0 : Fin 2) * 324 ≤ (i 0).val
      ∧ (i 0).val < win0_9.index ⟨(i 1).val / 128, hq⟩ (0 : Fin 2) * 324 + 324
    rw [e0]; omega
  | ⟨1, _⟩ =>
    show win0_9.index ⟨(i 1).val / 128, hq⟩ (1 : Fin 2) * 128 ≤ (i 1).val
      ∧ (i 1).val < win0_9.index ⟨(i 1).val / 128, hq⟩ (1 : Fin 2) * 128 + 128
    rw [e1]
    show (i 1).val / 128 * 128 ≤ (i 1).val ∧ (i 1).val < (i 1).val / 128 * 128 + 128
    omega

/-- After the last point the result array holds, at (o, n), the specification's output (n, o). -/
theorem arr9_final (m : (ℓ : Loc nD τ sig) → Buf (Elt Ideal) ℓ) (c : Dev nD) :
    (dats (F := Ideal) m 0 c).arrAt 9 cfg0.N
      = fun i : S324x2048.Idx => Cert.Spec.outRows (m ((c.tc : Thread nD τ).loc main_arg0)) (m ((c.tc : Thread nD τ).loc main_arg1)) (m ((c.tc : Thread nD τ).loc main_arg2)) (i 1) (i 0) :=
  (dats (F := Ideal) m 0 c).arrAt_eq_of_cover 9 (outArr m c) (fun t _ => flushed_eq m c t) cover

/-- Its transpose, which the host takes last, is the specification's result. -/
theorem out_final (m : (ℓ : Loc nD τ sig) → Buf (Elt Ideal) ℓ) (c : Dev nD) :
    (transpose S2048x324 [1, 0] ((dats (F := Ideal) m 0 c).arrAt 9 cfg0.N) transposes_S324x2048_S2048x324_1_0 : FVec Ideal S2048x324 .f32)
      = Cert.Spec.resRows (m ((c.tc : Thread nD τ).loc main_arg0)) (m ((c.tc : Thread nD τ).loc main_arg1)) (m ((c.tc : Thread nD τ).loc main_arg2)) := by
  rw [arr9_final]
  funext j
  obtain ⟨n, o, rfl⟩ : ∃ (n : Fin 2048) (o : Fin 324), j = ix2 n o := ⟨j 0, j 1, eq_ix2 j⟩
  refine (transpose_apply _ _ _ (ix2 n o) (ix2 o n) fun b => ?_).trans rfl
  match b with
  | ⟨0, _⟩ => rfl
  | ⟨1, _⟩ => rfl

end Cert.KernelIdeal.HandValue

end
-- ==== Proof.RefValue.lean ====
/-
  The value of the reference program at the ideal (extended real) values.

  The reference first flattens each 7 x 7 grid of the input to 49 cells and multiplies the weight matrix, entry by
  entry, by one fixed pooling scale. It then walks the 2048 samples in 32 blocks of 64 rows. For a block it sums the
  49 cells of every channel, contracts the 64 x 256 matrix of those sums with the 256 x 324 scaled weights starting
  from zero, and adds the bias row to every row of the product. Read at row p, column q of block t this is

      (sum over channels c of (sum over cells k of x(64 t + p, c, k / 7, k % 7)) * (w(c, q) * scale)) + b(0, q),

  which is, term for term, the flat form of the specification at (64 t + p, q); no law of arithmetic is used. The
  32 blocks tile the 2048 rows (row n lies in block n / 64), so the whole result array is the flat form. The three
  argument arrays are never written.

  The order below: the block arithmetic at one entry; the two arrays the host operations prepare, read at an entry;
  each window's block at a grid point as entries of the argument arrays; what a point writes back; the cover; the run.
-/
import proofs.«139848_g2000206077643666_pallasbulk_1328_13_alg».proof.Proof.Gen.ReferenceIdeal.Frame
import proofs.«139848_g2000206077643666_pallasbulk_1328_13_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.Tactic

noncomputable section

open scoped BigOperators

namespace Cert.ReferenceIdeal.HandValue

open Idealize.ShloMosaic Idealize.ShloMosaic.TcCoe Idealize.SL.Sem Idealize.ShloMosaic.ValueIdx
open Cert.ReferenceIdeal Cert.ReferenceIdeal.Gen
open Idealize.ShloMosaic.Pipeline (Dat)

/-! ## The block arithmetic at one entry -/

/-- The sum over the last axis of a 64 x 256 x 49 block, read at (p, c): the 49 cells of row p, channel c. -/
theorem laneSum_apply (x : FVec Ideal S64x256x49 .f32) (p : Fin 64) (c : Fin 256) :
    multiReduction .add [2] S64x256 x 0x00000000#32 reduces_S64x256x49_S64x256 (.inl rfl) rfl (ix2 p c)
      = ∑ k : Fin 49, x (ix3 p c k) := by
  refine (Ideal.multiReduction_add_single x 0x00000000#32 reduces_S64x256x49_S64x256 (.inl rfl) rfl (ix2 p c)).trans ?_
  refine Finset.sum_congr rfl fun k _ => congrArg x ?_
  funext a; apply Fin.ext
  match a with
  | ⟨0, _⟩ => rfl
  | ⟨1, _⟩ => rfl
  | ⟨2, _⟩ => rfl

/-- The left operand of the block product is read at (row of the output, contraction position); -/
theorem lhs_dot_0 (i : S64x324.Idx) (q : dot_S64x256_S256x324_S64x324_1_0_0_1_n_n.contr.Idx) :
    (dot_S64x256_S256x324_S64x324_1_0_0_1_n_n.lhsIdx i q 0).val = (i 0).val := by
  unfold DotDims.lhsIdx
  rw [dif_neg (show ¬(0 : Fin S64x256.rank) ∈ dot_S64x256_S256x324_S64x324_1_0_0_1_n_n.lhsBatch by decide),
    dif_pos (show (0 : Fin S64x256.rank) ∈ dot_S64x256_S256x324_S64x324_1_0_0_1_n_n.lhsNonContracting by decide)]
  rfl
theorem lhs_dot_1 (i : S64x324.Idx) (q : dot_S64x256_S256x324_S64x324_1_0_0_1_n_n.contr.Idx) :
    (dot_S64x256_S256x324_S64x324_1_0_0_1_n_n.lhsIdx i q 1).val = (q ⟨0, by decide⟩).val :=
  dot_S64x256_S256x324_S64x324_1_0_0_1_n_n.lhsIdx_val_of_single rfl i q
/-- the right operand at (contraction position, column of the output). -/
theorem rhs_dot_0 (i : S64x324.Idx) (q : dot_S64x256_S256x324_S64x324_1_0_0_1_n_n.contr.Idx) :
    (dot_S64x256_S256x324_S64x324_1_0_0_1_n_n.rhsIdx i q 0).val = (q ⟨0, by decide⟩).val :=
  dot_S64x256_S256x324_S64x324_1_0_0_1_n_n.rhsIdx_val_of_single rfl i q
theorem rhs_dot_1 (i : S64x324.Idx) (q : dot_S64x256_S256x324_S64x324_1_0_0_1_n_n.contr.Idx) :
    (dot_S64x256_S256x324_S64x324_1_0_0_1_n_n.rhsIdx i q 1).val = (i 1).val := by
  unfold DotDims.rhsIdx
  rw [dif_neg (show ¬(1 : Fin S256x324.rank) ∈ dot_S64x256_S256x324_S64x324_1_0_0_1_n_n.rhsBatch by decide),
    dif_pos (show (1 : Fin S256x324.rank) ∈ dot_S64x256_S256x324_S64x324_1_0_0_1_n_n.rhsNonContracting by decide)]
  rfl

/-- The block product into a zero accumulator, read at (p, q): the sum over the 256 channels of the products. -/
theorem blockProduct_apply (l : FVec Ideal S64x256 .f32) (r : FVec Ideal S256x324 .f32) (p : Fin 64) (q : Fin 324) :
    matmul dot_S64x256_S256x324_S64x324_1_0_0_1_n_n none l r (constant (F := Ideal) S64x324 .f32 0x00000000#32) (ix2 p q)
      = ∑ c : Fin 256, l (ix2 p c) * r (ix2 c q) := by
  simp only [matmul]
  rw [Ideal.matmul_constant_zero_apply,
    ← Equiv.sum_comp (contrEquiv1 dot_S64x256_S256x324_S64x324_1_0_0_1_n_n 256 rfl rfl).symm]
  refine Finset.sum_congr rfl fun k _ => ?_
  have hk := contrEquiv1_symm_val dot_S64x256_S256x324_S64x324_1_0_0_1_n_n 256 rfl rfl k
  have el : dot_S64x256_S256x324_S64x324_1_0_0_1_n_n.lhsIdx (ix2 p q)
      ((contrEquiv1 dot_S64x256_S256x324_S64x324_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S64x256_S256x324_S64x324_1_0_0_1_n_n.rhsIdx (ix2 p q)
      ((contrEquiv1 dot_S64x256_S256x324_S64x324_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- What the body stores at (p, q) of its 64 x 324 block, from the three blocks it loads: the channel sums of
    the cell sums times the weights, plus the bias row's entry. -/
theorem pay_apply (x0 : Vec Ideal S64x256x49 .f32) (x1 : Vec Ideal S256x324 .f32) (x2 : Vec Ideal S1x324 .f32)
    (p : Fin 64) (q : Fin 324) :
    k0_pay1 x0 x1 x2 (ix2 p q)
      = (∑ c : Fin 256, (∑ k : Fin 49, x0 (ix3 p c k)) * x1 (ix2 c q)) + x2 (ix2 (0 : Fin 1) q) := by
  unfold k0_pay1
  simp only [shapeCast_self]
  refine (addf_apply _ _ (ix2 p q)).trans ?_
  refine congrArg₂ (· + ·) ?_ (broadcastTo_1b_ab_apply x2 broadcasts_S1x324_S64x324 p q)
  refine (blockProduct_apply _ x1 p q).trans ?_
  exact Finset.sum_congr rfl fun c _ => congrArg (· * x1 (ix2 c q)) (laneSum_apply x0 p c)

/-! ## The arrays the region reads, as the host operations before it leave them -/

variable (m : (ℓ : Loc nD τ sig) → Buf (Elt Ideal) ℓ) (ρ : Dev nD → PrngReg)

/-- The three argument arrays of core c, at their literal shapes: the feature maps, the weights, the bias row. -/
abbrev inX (c : Dev nD) : S2048x256x7x7.Idx → EReal := m ((c.tc : Thread nD τ).loc main_arg0)
abbrev inW (c : Dev nD) : S256x324.Idx → EReal := m ((c.tc : Thread nD τ).loc main_arg1)
abbrev inB (c : Dev nD) : S1x324.Idx → EReal := m ((c.tc : Thread nD τ).loc main_arg2)

/-- The first window's array is the input with its 7 x 7 grid flattened to 49 cells. -/
theorem V_v0 (c : Dev nD) : (V m c main_v0 : S2048x256x49.Idx → EReal)
    = shapeCast S2048x256x49 (inX m c) shapeCasts_S2048x256x7x7_S2048x256x49 := by
  dsimp only [Gen.V, Gen.hostOps0]; after_results; rfl

/-- The second window's array is the weight matrix times the splat of the pooling scale. -/
theorem V_v2 (c : Dev nD) : (V m c main_v2 : S256x324.Idx → EReal)
    = mulf (inW m c) (broadcastInDim S256x324 ![] bcast_S_S256x324 (constant (F := Ideal) S_ .f32 0x3CA72F05#32)) := by
  dsimp only [Gen.V, Gen.hostOps0]; after_results

/-- Cell k of the flattened grid is row k / 7, column k % 7: both have row-major position
    ((n * 256 + ch) * 7 + k / 7) * 7 + k % 7 = (n * 256 + ch) * 49 + k. -/
theorem V_v0_apply (c : Dev nD) (n : Fin 2048) (ch : Fin 256) (k : Fin 49) :
    (V m c main_v0 : S2048x256x49.Idx → EReal) (ix3 n ch k)
      = inX m c (ix4 n ch (⟨k.val / 7, by omega⟩ : Fin 7) (⟨k.val % 7, by omega⟩ : Fin 7)) := by
  rw [V_v0]
  refine shapeCast_apply (inX m c) _ _ _ ?_
  rw [Shape.rowMajor_val_four, Shape.rowMajor_val_three]
  show ((n.val * 256 + ch.val) * 7 + k.val / 7) * 7 + k.val % 7 = (n.val * 256 + ch.val) * 49 + k.val
  omega

/-- Entry (ch, o) of the scaled weights. -/
theorem V_v2_apply (c : Dev nD) (ch : Fin 256) (o : Fin 324) :
    (V m c main_v2 : S256x324.Idx → EReal) (ix2 ch o) = inW m c (ix2 ch o) * Cert.Spec.scale := by
  rw [V_v2]
  rfl

/-! ## The windows' blocks at a grid point -/

/-- The printed index maps over the 32 grid points: the feature maps and the result move 64 rows per point, the
    weights and the bias row are read whole at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, ch, k) of the feature-map block at point t is cell k of channel ch of sample 64 t + p. -/
theorem xblk_apply (c : Dev nD) (t : Fin cfg0.N) (p : Fin 64) (ch : Fin 256) (k : Fin 49) (n : Fin 2048)
    (hn : n.val = 64 * t.val + p.val) :
    (iblk m c 0 t : Vec Ideal S64x256x49 .f32) (ix3 p ch k)
      = inX m c (ix4 n ch (⟨k.val / 7, by omega⟩ : Fin 7) (⟨k.val % 7, by omega⟩ : Fin 7)) := by
  obtain ⟨e0, e1, e2, -⟩ := idx_facts t
  unfold iblk
  rw [View.read_apply]
  show V m c main_v0 _ = _
  refine Eq.trans (congrArg (V m c main_v0) ?_) (V_v0_apply m c n ch k)
  funext a; apply Fin.ext
  match a with
  | ⟨0, _⟩ => show win0_0.index t (0 : Fin 3) * 64 + 1 * p.val = n.val; rw [e0, hn]; omega
  | ⟨1, _⟩ => show win0_0.index t (1 : Fin 3) * 256 + 1 * ch.val = ch.val; rw [e1]; omega
  | ⟨2, _⟩ => show win0_0.index t (2 : Fin 3) * 49 + 1 * k.val = k.val; rw [e2]; omega

/-- The weight block at any point is the whole scaled matrix. -/
theorem wblk_apply (c : Dev nD) (t : Fin cfg0.N) (ch : Fin 256) (o : Fin 324) :
    (iblk m c 1 t : Vec Ideal S256x324 .f32) (ix2 ch o) = inW m c (ix2 ch o) * Cert.Spec.scale := by
  obtain ⟨-, -, -, e0, e1, -⟩ := idx_facts t
  unfold iblk
  rw [View.read_apply]
  show V m c main_v2 _ = _
  refine Eq.trans (congrArg (V m c main_v2) ?_) (V_v2_apply m c ch o)
  funext a; apply Fin.ext
  match a with
  | ⟨0, _⟩ => show win0_1.index t (0 : Fin 2) * 256 + 1 * ch.val = ch.val; rw [e0]; omega
  | ⟨1, _⟩ => show win0_1.index t (1 : Fin 2) * 324 + 1 * o.val = o.val; rw [e1]; omega

/-- The bias block at any point is the whole bias row, which no host operation wrote. -/
theorem bblk_apply (c : Dev nD) (t : Fin cfg0.N) (o : Fin 324) :
    (iblk m c 2 t : Vec Ideal S1x324 .f32) (ix2 (0 : Fin 1) o) = inB m c (ix2 (0 : Fin 1) o) := by
  obtain ⟨-, -, -, -, -, e0, e1, -⟩ := idx_facts t
  unfold iblk
  rw [View.read_apply]
  show V m c main_arg2 _ = _
  rw [V_main_arg2]
  refine congrArg (inB m c) ?_
  funext a; apply Fin.ext
  match a with
  | ⟨0, _⟩ => show win0_2.index t (0 : Fin 2) * 1 + 1 * 0 = 0; rw [e0]
  | ⟨1, _⟩ => show win0_2.index t (1 : Fin 2) * 324 + 1 * o.val = o.val; rw [e1]; omega

/-! ## From the blocks to the whole result -/

theorem hz2 : (![0, 0] : Fin 2 → Nat) = fun _ => 0 := funext fun a => by fin_cases a <;> rfl
theorem hz3 : (![0, 0, 0] : Fin 3 → Nat) = fun _ => 0 := funext fun a => by fin_cases a <;> rfl

/-- What point t writes back is rows 64 t … 64 t + 63 of the pooled affine map of the three arguments: at row p,
    column q of the block, the channel sum of (the 49-cell sum of sample 64 t + p) times (the weight times the scale),
    plus the bias entry: the specification's flat form at (64 t + p, q), term for term. -/
theorem flushed_eq (c : Dev nD) (t : Fin cfg0.N) :
    (dats m 0 c).flushed 3 t
      = ((cfg0.win 3).blk t).view.read (Elt Ideal) (Cert.Spec.resFlat (inX m c) (inW m c) (inB m c)) := by
  show (cfg0.win 3).cut (grid0.coords t) ((dats m 0 c).after 3 t) = _
  rw [after0_3]
  unfold out0_3
  rw [View.canon_unit_zero hz2]
  simp only [View.ld_unit_zero (S := S64x256x49) hz3, View.ld_unit_zero (S := S256x324) hz2,
    View.ld_unit_zero (S := S1x324) hz2]
  obtain ⟨-, -, -, -, -, -, -, e0, e1⟩ := idx_facts t
  have ht : t.val < 32 := lt_of_lt_of_eq t.isLt N_0
  funext j
  obtain ⟨p, q, rfl⟩ : ∃ (p : Fin 64) (q : Fin 324), j = ix2 p q := ⟨j 0, j 1, eq_ix2 j⟩
  have hemb : ((cfg0.win 3).blk t).view.emb (ix2 p q)
      = ix2 (⟨64 * t.val + p.val, by omega⟩ : Fin 2048) q := by
    funext a; apply Fin.ext
    match a with
    | ⟨0, _⟩ => show win0_3.index t (0 : Fin 2) * 64 + 1 * p.val = 64 * t.val + p.val; rw [e0]; omega
    | ⟨1, _⟩ => show win0_3.index t (1 : Fin 2) * 324 + 1 * q.val = q.val; rw [e1]; omega
  rw [View.read_apply, hemb]
  show k0_pay1 (iblk m c 0 t) (iblk m c 1 t) (iblk m c 2 t) (ix2 p q)
    = Cert.Spec.outFlat (inX m c) (inW m c) (inB m c) (⟨64 * t.val + p.val, by omega⟩ : Fin 2048) q
  refine (pay_apply (iblk m c 0 t) (iblk m c 1 t) (iblk m c 2 t) p q).trans ?_
  unfold Cert.Spec.outFlat Cert.Spec.poolFlat
  refine congrArg₂ (· + ·) (Finset.sum_congr rfl fun ch _ => ?_) (bblk_apply m c t q)
  rw [wblk_apply m c t ch q]
  exact congrArg (· * (inW m c (ix2 ch q) * Cert.Spec.scale))
    (Finset.sum_congr rfl fun k _ => xblk_apply m c t p ch k _ rfl)

/-- Row n of the result lies in the block of point n / 64, and every point writes its block back. -/
theorem cover (i : S2048x324.Idx) :
    ∃ t : Fin cfg0.N, (cfg0.win 3).flush t = true ∧ i ∈ ((cfg0.win 3).blk t).view.set := by
  have hi0 : (i 0).val < 2048 := (i 0).isLt
  have hi1 : (i 1).val < 324 := (i 1).isLt
  have hN : cfg0.N = 32 := N_0
  obtain ⟨t, htv⟩ : ∃ t : Fin cfg0.N, t.val = (i 0).val / 64 := ⟨⟨(i 0).val / 64, by rw [hN]; omega⟩, rfl⟩
  obtain ⟨-, -, -, -, -, -, -, e0, e1⟩ := idx_facts t
  refine ⟨t, flush0_3 t, ?_⟩
  show i ∈ ((View.whole main_v3).slice (win0_3.rect t)).set
  rw [View.set_slice_whole, Rect.mem_set_unit]
  intro a
  match a with
  | ⟨0, _⟩ =>
    show win0_3.index t (0 : Fin 2) * 64 ≤ (i 0).val ∧ (i 0).val < win0_3.index t (0 : Fin 2) * 64 + 64
    rw [e0, htv]; omega
  | ⟨1, _⟩ =>
    show win0_3.index t (1 : Fin 2) * 324 ≤ (i 1).val ∧ (i 1).val < win0_3.index t (1 : Fin 2) * 324 + 324
    rw [e1]; omega

/-- So after the last point the result array holds the specification's flat form of the three arguments. -/
theorem final (c : Dev nD) :
    (dats m 0 c).arrAt 3 cfg0.N = Cert.Spec.resFlat (inX m c) (inW m c) (inB m c) :=
  (dats m 0 c).arrAt_eq_of_cover 3 (Cert.Spec.resFlat (inX m c) (inW m c) (inB m c))
    (fun t _ => flushed_eq m c t) cover

/-! ## The run -/

/-- Every run of the reference from a memory with zero counters ends with the result array at the flat pooled affine
    map of the three argument arrays, and the argument arrays as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.Spec.resFlat (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩)
    (run_main m ρ)

end Cert.ReferenceIdeal.HandValue

end
-- ==== Proof.SpecAlgebra.lean ====
/-
  The two orders of arithmetic in the specification give one value.

  Pooling a 7 x 7 grid by rows (seven sums of seven cells) and pooling its 49 flattened cells in one sum add up the
  same cells: cell k of the flattened grid is the cell in row k / 7 and column k % 7, and the map (j, r) to 7 j + r is a
  bijection from pairs onto the 49 cells. A finite sum in a commutative additive monoid does not depend on the order
  of its terms, so the two pooled values agree on the extended reals, infinities included.

  In the contraction each term is a product of three extended reals, the weight, the pooled value and the scale,
  bracketed differently in the two forms. Multiplication on the extended reals is commutative and associative, so the
  terms agree one by one. Nothing here distributes a product over a sum.
-/
import Mathlib.Data.Fintype.BigOperators
import Mathlib.Logic.Equiv.Fin.Basic
import Mathlib.Data.EReal.Inv
import proofs.«139848_g2000206077643666_pallasbulk_1328_13_alg».proof.Proof.Spec

noncomputable section

open scoped BigOperators

namespace Cert.Spec

open Idealize.ShloMosaic Idealize.ShloMosaic.ValueIdx

/-- Summing a channel row by row and summing it over the flattened grid give the same value: the pair (row j, column r)
    is sent to the flat cell r + 7 j, whose quotient by 7 is j and whose remainder is r, and this is a bijection of the
    index sets, so the double sum is the single sum with its terms in another order. -/
theorem poolRows_eq_poolFlat (x : FVec Ideal SX .f32) (n : Fin 2048) (c : Fin 256) :
    poolRows x n c = poolFlat x n c := by
  unfold poolRows poolFlat
  rw [← Fintype.sum_prod_type' (fun j r : Fin 7 => x (ix4 n c j r))]
  refine Fintype.sum_equiv (finProdFinEquiv (m := 7) (n := 7)) _ _ ?_
  rintro ⟨j, r⟩
  have hq : (r.val + 7 * j.val) / 7 = j.val := by omega
  have hr : (r.val + 7 * j.val) % 7 = r.val := by omega
  have hj : (⟨(finProdFinEquiv (j, r)).val / 7, by omega⟩ : Fin 7) = j := Fin.ext hq
  have hc : (⟨(finProdFinEquiv (j, r)).val % 7, by omega⟩ : Fin 7) = r := Fin.ext hr
  show x (ix4 n c j r) = x (ix4 n c _ _)
  rw [hj, hc]

/-- Output (n, o) is the same in both forms. Per channel the term is the product of the weight, the pooled value and
    the scale; the two forms pool alike (the lemma above) and differ only in which two factors are multiplied first,
    which commutativity and associativity of the product on the extended reals settle. The bias is added to both. -/
theorem outRows_eq_outFlat (x : FVec Ideal SX .f32) (w : FVec Ideal SW .f32) (b : FVec Ideal SB .f32)
    (n : Fin 2048) (o : Fin 324) : outRows x w b n o = outFlat x w b n o := by
  unfold outRows outFlat
  refine congrArg (· + b (ix2 (0 : Fin 1) o)) ?_
  refine Finset.sum_congr rfl fun c _ => ?_
  rw [poolRows_eq_poolFlat, mul_left_comm]

/-- The two result arrays agree at every index, since each entry is the output at that index's two coordinates. -/
theorem resRows_eq_resFlat (x : FVec Ideal SX .f32) (w : FVec Ideal SW .f32) (b : FVec Ideal SB .f32) :
    resRows x w b = resFlat x w b := by
  funext i
  exact outRows_eq_outFlat x w b (i 0) (i 1)

end Cert.Spec

end
-- ==== Proof.lean ====
/-
  Equivalence, over the extended reals, of a pooled affine head written as one pipelined kernel and its reference.

  Both programs take a batch x of 2048 feature maps (256 channels on a 7 x 7 grid), a 256 x 324 weight matrix w and a
  1 x 324 bias row b, average-pool every channel over its 49 cells and apply the affine map. The kernel first views x
  with the grid axes leading, streams seven row slabs per batch tile through seven windows of ONE array, adds the slab
  sums, scales by the f32 word nearest 1/49, contracts with the transposed weights and writes the result transposed;
  a closing transpose restores the layout. The reference flattens the grid, sums the 49 cells at once and contracts
  with weights scaled beforehand by the same word.

  Output (n, o) is therefore  (sum over c of w(c,o) * ((sum over rows j, columns r of x(n,c,j,r)) * s)) + b(0,o)  on one
  side and  (sum over c of (sum over k < 49 of x(n,c,k/7,k%7)) * (w(c,o) * s)) + b(0,o)  on the other, with the same
  scale s. The two pooled sums add the same 49 cells, and the three-factor products differ only in bracketing and order;
  addition and multiplication on the extended reals are commutative and associative at every value, so the results
  agree at every input and the precondition is not needed for the value.

  The modules: Spec (the two forms of the result), SpecAlgebra (they agree), KernelIdealBody / KernelIdealLaunch (the
  kernel's region point by point, and its run from launch to the closing transpose, the slab array held at seven
  shares), KernelBody / KernelLaunch (the same for the word-level reading), KIValue (the kernel's result array is the
  row-pooled form), RefValue (the reference's result array is the flat-pooled form).
-/
import proofs.«139848_g2000206077643666_pallasbulk_1328_13_alg».proof.Defs
import proofs.«139848_g2000206077643666_pallasbulk_1328_13_alg».proof.Proof.Gen.Kernel
import proofs.«139848_g2000206077643666_pallasbulk_1328_13_alg».proof.Proof.Gen.KernelIdeal
import proofs.«139848_g2000206077643666_pallasbulk_1328_13_alg».proof.Proof.Gen.ReferenceIdeal
import proofs.«139848_g2000206077643666_pallasbulk_1328_13_alg».proof.Proof.Gen.ReferenceIdeal.Frame
import proofs.«139848_g2000206077643666_pallasbulk_1328_13_alg».proof.Proof.Gen.Pre_finite_inputs
import proofs.«139848_g2000206077643666_pallasbulk_1328_13_alg».proof.Proof.KernelLaunch
import proofs.«139848_g2000206077643666_pallasbulk_1328_13_alg».proof.Proof.KernelIdealLaunch
import proofs.«139848_g2000206077643666_pallasbulk_1328_13_alg».proof.Proof.KIValue
import proofs.«139848_g2000206077643666_pallasbulk_1328_13_alg».proof.Proof.RefValue
import proofs.«139848_g2000206077643666_pallasbulk_1328_13_alg».proof.Proof.SpecAlgebra
import Idealize.ShloMosaic.Adequacy
import Idealize.ShloMosaic.Init

noncomputable section

namespace Cert.Proof

open Idealize.ShloMosaic Idealize.ShloMosaic.TcCoe Idealize.SL.Sem

/-- The word-level kernel program runs and leaves its arguments as launched: its run, the result dropped. -/
theorem frame_k : Cert.frame_Kernel := fun m ρ _ =>
  (θ_run Cert.Kernel.defs _ _).mono (fun _ h c => (h c).2) (Cert.Kernel.Hand.run_main (F := Bits) m ρ)

/-- The idealized kernel program likewise. -/
theorem frame_ki : Cert.frame_KernelIdeal := fun m ρ _ =>
  (θ_run Cert.KernelIdeal.defs _ _).mono (fun _ h c => (h c).2) (Cert.KernelIdeal.Hand.run_main (F := Ideal) m ρ)

/-- The idealized reference: its region is one window per array, and its frame is the generated one. -/
theorem frame_ri : Cert.frame_ReferenceIdeal := fun m ρ _ =>
  Cert.ReferenceIdeal.Gen.frame m ρ

/-- From memories that agree on the arguments both programs end with the row-pooled form of the result: the kernel's
    result buffer is the transpose of its pipeline's result array, which holds that form; the reference's result array
    holds the flat-pooled form, which is the same function. -/
theorem algebraic :
    Cert.algebraic_KernelIdeal_ReferenceIdeal := by
  intro m ρ m' ρ' _ hagree
  refine ⟨fun c => Cert.Spec.resRows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨((h c).1.trans (Cert.KernelIdeal.Hand.outT_eq m c)).trans (Cert.KernelIdeal.HandValue.out_final m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.HandValue.run_value m' ρ')
    rw [(hagree c).1, (hagree c).2.1, (hagree c).2.2]
    exact (Cert.Spec.resRows_eq_resFlat _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
